-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩

abbrev nBuf : Space → Nat
  | .hbm => 10
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .hbm, ⟨9, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S200x128, .f32⟩
  | .local _ .vmem, ⟨8, _⟩ => ⟨S200x128, .f32⟩
  | .local _ .vmem, ⟨9, _⟩ => ⟨S200x128, .f32⟩
  | .local _ .vmem, ⟨10, _⟩ => ⟨S200x128, .f32⟩
  | .local _ .vmem, ⟨11, _⟩ => ⟨S10000x128, .bf16⟩
  | .local _ .vmem, ⟨12, _⟩ => ⟨S10000x128, .f32⟩
  | .local _ .vmem, ⟨13, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg0 : BitVec 32 := BitVec.ofNat 32 (i 0).val
  let c0_i32_3 : BitVec 32 := 0#32
  let v7 : BitVec 1 := Scalar.cmpi .eq arg0 c0_i32_3
  let v8 : BitVec 32 := Scalar.extui v7
  let c0_i32_4 : BitVec 32 := 0#32
  let v9 : BitVec 1 := Scalar.cmpi .ne v8 c0_i32_4
  v9

def k0_off1 (i : grid0.Coords) : Fin 2 → Nat :=
  let arg1 : BitVec 32 := BitVec.ofNat 32 (i 1).val
  let c200_i32 : BitVec 32 := 200#32
  let v30 : BitVec 32 := Scalar.muli arg1 c200_i32
  let v31 : Index := Scalar.indexCast v30
  let c0_17 : Index := 0#32
  ![v31.toNat, 0]
def k0_cond4 (i : grid0.Coords) : BitVec 1 :=
  let arg0 : BitVec 32 := BitVec.ofNat 32 (i 0).val
  let c1_i32_7 : BitVec 32 := 1#32
  let v15 : BitVec 1 := Scalar.cmpi .eq arg0 c1_i32_7
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S200x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  h_S200x128 : 0 < S200x128.numel
  shapeCasts_S200x128_S200x128 : S200x128.ShapeCasts S200x128
  inb_S200x128_S200x128_0_0 : ∀ a, (![0, 0] : Fin 2 → Nat) a + S200x128.size a ≤ S200x128.size a
  dot_S200x10000_S10000x128_S200x128_1_0_0_1_n_n_wf : DotDims.WF S200x10000 S10000x128 S200x128 [1] [0] [0] [1] [] []
  dot_S200x128_S128x128_S200x128_1_1_0_0_n_n_wf : DotDims.WF S200x128 S128x128 S200x128 [1] [1] [0] [0] [] []
  hrank0 : 0 < grid0.rank
  k0_off1_inb : ∀ i : grid0.Coords, ∀ (k0_h2 : k0_cond2 i = 1#1), ∀ a, (k0_off1 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S10000x128.size a
  hwx0_6 : ∀ i : grid0.Coords, EltTy.bits .f32 = 32 ∨ (Rect.block (s := S10000x128) S200x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x128.size a ≤ S10000x128.size a
  hwx0_7 : ∀ i : grid0.Coords, EltTy.bits .f32 = 32 ∨ (Rect.block (s := S10000x128) S200x128.size (cc0_transform_7 i) (hinb0_7 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_1_0_0_n_n : DotDims S200x128 S128x128 S200x128 where
  lhsContracting := [1]
  rhsContracting := [1]
  lhsNonContracting := [0]
  rhsNonContracting := [0]
  lhsBatch := []
  rhsBatch := []
  wf := dot_S200x128_S128x128_S200x128_1_1_0_0_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S200x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S200x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond4 i == 1#1) | 7 => fun i => !(k0_cond4 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S128x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S128x128, .f32⟩
  | .hbm, ⟨17, _⟩ => ⟨S10000x128, .f32⟩
  | .hbm, ⟨18, _⟩ => ⟨S1x128, .f32⟩
  | .hbm, ⟨19, _⟩ => ⟨S10000x128, .f32⟩
  | .hbm, ⟨20, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.SchedBits.lean ====
/-
  The grid has 100 points, t = 50·p + i for pass p ∈ {0, 1} and row block i ∈ {0, …, 49}. Everything the body or the
  pipeline decides from the point is stated here in closed form over t and decided once over the grid: which of the
  body's four branches run (the feature cast at t = 0, the first pass at t < 50, the hidden-layer cast at t = 50, the
  second pass at t ≥ 50), where the two result windows are idle and where they are written back (idle and kept through
  the first pass; stored and written back at every point of the second), and the row offset 200·i of the first pass's
  store into the hidden-layer buffer.
-/
import proofs.«118011_g48653389529423_cont_8to1_c_917_10_alg».proof.Proof.Gen.Kernel.Points

noncomputable section

namespace Cert.Kernel.Body

open Cert.Kernel Cert.Kernel.Gen
open Idealize.ShloMosaic Idealize.ShloMosaic.TcCoe
open Idealize.SL Idealize.SL.Sem

/-- The body's first branch (taken only at the grid's first point): both coordinates zero. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch: the first pass over the row blocks. -/
abbrev cond2 (i : grid0.Coords) : Prop := k0_cond2 i = 1#1
/-- The third branch (taken only at the second pass's first point). -/
abbrev cond3 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- The fourth branch: the second pass. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 50 :=
  (by decide +kernel : ∀ t : Fin grid0.N, cond2 (grid0.coords t) ↔ t.val < 50)
theorem hcond3 : ∀ t : Fin cfg0.N, cond3 (grid0.coords t) ↔ t.val = 50 :=
  (by decide +kernel : ∀ t : Fin grid0.N, cond3 (grid0.coords t) ↔ t.val = 50)
theorem hcond4 : ∀ t : Fin cfg0.N, cond4 (grid0.coords t) ↔ 50 ≤ t.val :=
  (by decide +kernel : ∀ t : Fin grid0.N, cond4 (grid0.coords t) ↔ 50 ≤ t.val)

/-- The six operand windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- Through the first pass the two result windows are idle and not written back; -/
theorem idle6 : ∀ t : Fin cfg0.N, t.val < 50 → cfg0.idle 6 (grid0.coords t) = true := by decide +kernel
theorem idle7 : ∀ t : Fin cfg0.N, t.val < 50 → cfg0.idle 7 (grid0.coords t) = true := by decide +kernel
theorem noFlush6 : ∀ t : Fin cfg0.N, t.val < 50 → (cfg0.win 6).flush t = false :=
  (by decide +kernel : ∀ t : Fin grid0.N, t.val < 50 → win0_6.flush t = false)
theorem noFlush7 : ∀ t : Fin cfg0.N, t.val < 50 → (cfg0.win 7).flush t = false :=
  (by decide +kernel : ∀ t : Fin grid0.N, t.val < 50 → win0_7.flush t = false)
/-- in the second pass they are stored at every point and written back at every point. -/
theorem live6 : ∀ t : Fin cfg0.N, 50 ≤ t.val → cfg0.idle 6 (grid0.coords t) = false := by decide +kernel
theorem live7 : ∀ t : Fin cfg0.N, 50 ≤ t.val → cfg0.idle 7 (grid0.coords t) = false := by decide +kernel
theorem flush6 : ∀ t : Fin cfg0.N, (cfg0.win 6).flush t = true ↔ 50 ≤ t.val :=
  (by decide +kernel : ∀ t : Fin grid0.N, win0_6.flush t = true ↔ 50 ≤ t.val)
theorem flush7 : ∀ t : Fin cfg0.N, (cfg0.win 7).flush t = true ↔ 50 ≤ t.val :=
  (by decide +kernel : ∀ t : Fin grid0.N, win0_7.flush t = true ↔ 50 ≤ t.val)

/-- The first pass stores its 200 rows at row 200·i, column 0 of the hidden-layer buffer. -/
theorem off1_eq : ∀ t : Fin cfg0.N, t.val < 50 → k0_off1 (grid0.coords t) = ![200 * t.val, 0] :=
  (by decide +kernel : ∀ t : Fin grid0.N, t.val < 50 → k0_off1 (grid0.coords t) = ![200 * t.val, 0])

/-- The adjacency window's block index is the row block i = t mod 50 in both passes; a result window's is 0 through the
    first pass and i in the second. -/
theorem index0 : ∀ t : Fin cfg0.N, win0_0.index t = ![t.val % 50, 0] :=
  (by decide +kernel : ∀ t : Fin grid0.N, win0_0.index t = ![t.val % 50, 0])
theorem index6 : ∀ t : Fin cfg0.N, 50 ≤ t.val → win0_6.index t = ![t.val - 50, 0] :=
  (by decide +kernel : ∀ t : Fin grid0.N, 50 ≤ t.val → win0_6.index t = ![t.val - 50, 0])
theorem index7 : ∀ t : Fin cfg0.N, 50 ≤ t.val → win0_7.index t = ![t.val - 50, 0] :=
  (by decide +kernel : ∀ t : Fin grid0.N, 50 ≤ t.val → win0_7.index t = ![t.val - 50, 0])

end Cert.Kernel.Body

end
-- ==== Proof.DataBits.lean ====
/-
  The proof data of the one pipeline. Row block i of the adjacency is staged at points i (first pass) and 50 + i
  (second pass). Three buffers of the kernel's own are carried from point to point: the features' cast C (written at
  point 0), the hidden layer H (rows [200·i, 200·i + 200) written at point i of the first pass) and its cast (written
  at point 50). Their contents are named through the body's own arithmetic:
      C      = cast of the features' block,
      H_i    = the first pass's term of adjacency block i, C, the first weights and bias   (200 rows),
      H      = the array whose rows [200·i, 200·i + 200) are H_i,
      E_t, Y_t = the second pass's terms of adjacency block t, the cast of H, the second weights and bias.
  Between points the invariant holds the three buffers at SOME contents of which it states: C from point 1 on, the rows
  of every first-pass point already run, the cast of H from point 51 on. Stated at any float instance.
-/
import proofs.«118011_g48653389529423_cont_8to1_c_917_10_alg».proof.Proof.Gen.Kernel.Frame
import proofs.«118011_g48653389529423_cont_8to1_c_917_10_alg».proof.Proof.Gen.Kernel.Skeleton
import proofs.«118011_g48653389529423_cont_8to1_c_917_10_alg».proof.Proof.SchedBits
import Idealize.ShloMosaic.Lib.Pipeline.Value
import Idealize.ShloMosaic.Lib.WritesUnit
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks, under their literal types -/

abbrev adjBlk (c : Dev nD) (t : Fin cfg0.N) : Vec F S200x10000 .f32 := iblk m c 0 t
abbrev xBlk (c : Dev nD) (t : Fin cfg0.N) : Vec F S10000x128 .f32 := iblk m c 1 t
abbrev w1Blk (c : Dev nD) (t : Fin cfg0.N) : Vec F S128x128 .f32 := iblk m c 2 t
abbrev b1Blk (c : Dev nD) (t : Fin cfg0.N) : Vec F S1x128 .f32 := iblk m c 3 t
abbrev w2Blk (c : Dev nD) (t : Fin cfg0.N) : Vec F S128x128 .f32 := iblk m c 4 t
abbrev b2Blk (c : Dev nD) (t : Fin cfg0.N) : Vec F S1x128 .f32 := iblk m c 5 t

/-- The grid's first point. -/
abbrev t0 : Fin cfg0.N := ⟨0, by decide⟩

/-! ## What the carried buffers and the results hold -/

/-- The features' cast, as point 0 leaves it. -/
def castX (c : Dev nD) : Vec F S10000x128 .bf16 := k0_pay2 (xBlk m c t0)

/-- The 200 hidden-layer rows the first pass computes at point `t`. -/
def hidRows (c : Dev nD) (t : Fin cfg0.N) : Vec F S200x128 .f32 :=
  k0_pay3 (adjBlk m c t) (castX m c) (w1Blk m c t) (b1Blk m c t)

/-- Row `a` of the hidden layer lies in block `a / 200`, a point of the first pass. -/
theorem rowBlock_lt (a : Fin 10000) : a.val / 200 < cfg0.N := by
  have h := a.isLt
  have : a.val / 200 < 50 := by omega
  exact lt_of_lt_of_le this (by decide)

/-- The hidden layer: row `a` is row `a mod 200` of the rows computed at point `a / 200`. -/
def hidArr (c : Dev nD) : Vec F S10000x128 .f32 := fun y =>
  hidRows m c ⟨(y 0).val / 200, rowBlock_lt (y 0)⟩ (ValueIdx.ix2 ⟨(y 0).val % 200, Nat.mod_lt _ (by decide)⟩ (y 1))

/-- The hidden layer's cast, as point 50 leaves it. -/
def castH (c : Dev nD) : Vec F S10000x128 .bf16 := k0_pay4 (hidArr m c)

/-- The embedding block the second pass stores at point `t`. -/
def embBlk (c : Dev nD) (t : Fin cfg0.N) : Vec F S200x128 .f32 := k0_pay5 (adjBlk m c t) (castH m c)

/-- The output block the second pass stores at point `t`. -/
def outBlk (c : Dev nD) (t : Fin cfg0.N) : Vec F S200x128 .f32 := k0_pay6 (adjBlk m c t) (castH m c) (w2Blk m c t) (b2Blk m c t)

/-! ## The invariant between points -/

/-- Row `200·a + r` of a 10000-row array, for a block `a < 50`. -/
abbrev rowOf (a : ℕ) (ha : a < 50) (r : Fin 200) : Fin 10000 := ⟨200 * a + r.val, by have := r.isLt; omega⟩

/-- What is known of the three carried buffers' contents before point `n`. -/
def Inv (c : Dev nD) (n : ℕ) (f0 : Vec F S10000x128 .bf16) (f1 : Vec F S10000x128 .f32) (f2 : Vec F S10000x128 .bf16) : Prop :=
  (1 ≤ n → f0 = castX m c)
  ∧ (∀ t : Fin cfg0.N, t.val < n → ∀ (ht : t.val < 50) (r : Fin 200) (o : Fin 128),
      f1 (ValueIdx.ix2 (rowOf t.val ht r) o) = hidRows m c t (ValueIdx.ix2 r o))
  ∧ (51 ≤ n → f2 = castH m c)

/-- The three carried buffers, whole. -/
abbrev scM0 : Memref sig .tc .vmem S10000x128 .bf16 := Memref.whole cc0_scratch0
abbrev scM1 : Memref sig .tc .vmem S10000x128 .f32 := Memref.whole cc0_scratch1
abbrev scM2 : Memref sig .tc .vmem S10000x128 .bf16 := Memref.whole cc0_scratch2

/-- The region invariant before point `n`: the three buffers at contents satisfying `Inv`, and the generator register. -/
def PhiS (c : Dev nD) (n : ℕ) : sProp 𝕄 :=
  iprop(∃ f0 f1 f2, owns (c : Thread nD τ) scM0 fullShare f0 ∗ owns (c : Thread nD τ) scM1 fullShare f1
    ∗ owns (c : Thread nD τ) scM2 fullShare f2 ∗ ⌜Inv m c n f0 f1 f2⌝ ∗ (∃ r, prngReg c r))

/-! ## The proof data -/

/-- The arrays as the region finds them; after the body each operand's buffer at its block and each result's at the
    second pass's term of the point; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
    | ⟨7, _⟩ => embBlk m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk m c t := by dsimp only [dats]
theorem after0_7 (c : Dev nD) (t : Fin cfg0.N) : (dats m 0 c).after 7 t = embBlk m c t := by dsimp only [dats]

/-- Each operand's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.Kernel.Body

end
-- ==== Proof.InvBits.lean ====
/-
  How the invariant moves from one point to the next. A first-pass point t stores 200 rows at rows [200·t, 200·t + 200)
  of the hidden-layer buffer: those rows now hold the point's term, every other row what it held. Once the 50 points
  of the first pass have run, every row a = 200·(a / 200) + a mod 200 is the term of point a / 200, so the buffer holds
  the hidden layer whole.
-/
import proofs.«118011_g48653389529423_cont_8to1_c_917_10_alg».proof.Proof.Gen.Kernel.Frame
import proofs.«118011_g48653389529423_cont_8to1_c_917_10_alg».proof.Proof.Gen.Kernel.Skeleton
import proofs.«118011_g48653389529423_cont_8to1_c_917_10_alg».proof.Proof.DataBits
import Idealize.ShloMosaic.Lib.Pipeline.Value
import Idealize.ShloMosaic.Lib.WritesUnit
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The rows a first-pass store writes read the stored payload. -/
theorem rows_new {sg : RefSig} {κ : Kind} {sp : Space} (v : View sg κ sp S10000x128 .f32) (f : v.ty.Contents (Elt F))
    {off : Fin 2 → ℕ} (inb : ∀ a : Fin 2, off a + S200x128.size a ≤ S10000x128.size a) (pay : Vec F S200x128 .f32)
    (a : ℕ) (ha : a < 50) (hoff : off = ![200 * a, 0]) (r : Fin 200) (o : Fin 128) :
    v.read (Elt F) (v.writes (Elt F) f [(⟨Rect.unit (s := S10000x128) off S200x128.size inb, pay⟩ : View.Piece (Elt F) S10000x128 .f32)])
        (ValueIdx.ix2 (rowOf a ha r) o) = pay (ValueIdx.ix2 r o) :=
  View.read_writes_cons_rows_of_mem v f inb pay [] (ValueIdx.ix2 (rowOf a ha r) o) (ValueIdx.ix2 r o) hoff rfl rfl

/-- Every other row reads what the buffer held. -/
theorem rows_old {sg : RefSig} {κ : Kind} {sp : Space} (v : View sg κ sp S10000x128 .f32) (f : v.ty.Contents (Elt F))
    {off : Fin 2 → ℕ} (inb : ∀ a : Fin 2, off a + S200x128.size a ≤ S10000x128.size a) (pay : Vec F S200x128 .f32)
    (a : ℕ) (hoff : off = ![200 * a, 0]) (y : S10000x128.Idx) (hy : (y 0).val < 200 * a ∨ 200 * a + 200 ≤ (y 0).val) :
    v.read (Elt F) (v.writes (Elt F) f [(⟨Rect.unit (s := S10000x128) off S200x128.size inb, pay⟩ : View.Piece (Elt F) S10000x128 .f32)]) y
      = v.read (Elt F) f y :=
  View.read_writes_cons_rows_of_not_mem v f inb pay [] y hoff rfl hy

/-- Nothing is known, and nothing asked, before the first point. -/
theorem inv_zero (c : Dev nD) (f0 : Vec F S10000x128 .bf16) (f1 : Vec F S10000x128 .f32) (f2 : Vec F S10000x128 .bf16) :
    Inv m c 0 f0 f1 f2 :=
  ⟨fun h => absurd h (by omega), fun t h => absurd h (by omega), fun h => absurd h (by omega)⟩

/-- A first-pass point: the features' cast is (or was already) in place, the point's rows are stored over the
    hidden-layer buffer `v` reads, the rest is kept. -/
theorem inv_pass1 (c : Dev nD) (t : Fin cfg0.N) (ht : t.val < 50)
    {sg : RefSig} {κ : Kind} {sp : Space} (v : View sg κ sp S10000x128 .f32) (g : v.ty.Contents (Elt F))
    (inb : ∀ a : Fin 2, (k0_off1 (grid0.coords t)) a + S200x128.size a ≤ S10000x128.size a)
    (f0 f0' : Vec F S10000x128 .bf16) (f1 : Vec F S10000x128 .f32) (f2 : Vec F S10000x128 .bf16)
    (hg : v.read (Elt F) g = f1) (h0 : f0' = castX m c) (hinv : Inv m c t.val f0 f1 f2) :
    Inv m c (t.val + 1) f0'
      (v.read (Elt F) (v.writes (Elt F) g [(⟨Rect.unit (s := S10000x128) (k0_off1 (grid0.coords t)) S200x128.size inb,
        k0_pay3 (adjBlk m c t) f0' (w1Blk m c t) (b1Blk m c t)⟩ : View.Piece (Elt F) S10000x128 .f32)])) f2 := by
  refine ⟨fun _ => h0, fun t' ht' h50 r o => ?_, fun h => absurd h (by omega)⟩
  by_cases he : t'.val = t.val
  · obtain rfl : t' = t := Fin.ext he
    rw [rows_new v g inb _ t'.val h50 (off1_eq t' h50) r o, h0]; rfl
  · rw [rows_old v g inb _ t.val (off1_eq t ht) _ (by
      show (200 * t'.val + r.val < 200 * t.val ∨ 200 * t.val + 200 ≤ 200 * t'.val + r.val)
      have := r.isLt; omega), hg]
    exact hinv.2.1 t' (by omega) h50 r o

/-- After the first pass the hidden-layer buffer holds the hidden layer whole. -/
theorem inv_full (c : Dev nD) (n : ℕ) (hn : 50 ≤ n) (f0 : Vec F S10000x128 .bf16) (f1 : Vec F S10000x128 .f32) (f2 : Vec F S10000x128 .bf16)
    (hinv : Inv m c n f0 f1 f2) : f1 = hidArr m c := by
  funext y
  have hy0 : (y 0).val < 10000 := (y 0).isLt
  have ha : (y 0).val / 200 < 50 := by omega
  have hr : (y 0).val % 200 < 200 := Nat.mod_lt _ (by decide)
  have e : y = ValueIdx.ix2 (rowOf ((y 0).val / 200) ha ⟨(y 0).val % 200, hr⟩) (y 1) := by
    funext a
    match a with
    | ⟨0, _⟩ => exact Fin.ext (by show (y 0).val = 200 * ((y 0).val / 200) + (y 0).val % 200; omega)
    | ⟨1, _⟩ => rfl
  have h := hinv.2.1 ⟨(y 0).val / 200, rowBlock_lt (y 0)⟩ (by show (y 0).val / 200 < n; omega) ha ⟨(y 0).val % 200, hr⟩ (y 1)
  calc f1 y = f1 (ValueIdx.ix2 (rowOf ((y 0).val / 200) ha ⟨(y 0).val % 200, hr⟩) (y 1)) := congrArg f1 e
    _ = _ := h

/-- A second-pass point: the hidden layer's cast is (or was already) in place; the other two buffers are kept. -/
theorem inv_pass2 (c : Dev nD) (t : Fin cfg0.N) (ht : 50 ≤ t.val)
    (f0 : Vec F S10000x128 .bf16) (f1 : Vec F S10000x128 .f32) (f2 f2' : Vec F S10000x128 .bf16)
    (h2 : f2' = castH m c) (hinv : Inv m c t.val f0 f1 f2) : Inv m c (t.val + 1) f0 f1 f2' :=
  ⟨fun _ => hinv.1 (by omega), fun t' _ h50 r o => hinv.2.1 t' (by omega) h50 r o, fun _ => h2⟩

end Cert.Kernel.Body

end
-- ==== Proof.ReadBack.lean ====
/-
  Reading a whole rank-2 buffer: a load through the whole-shape rectangle at zero offsets reads the contents; one store
  through it leaves its payload whatever the buffer held; and a load right after such a store reads the payload.
-/
import Idealize.ShloMosaic.Lib.Pipeline.Value
import Idealize.ShloMosaic.Lib.Pipeline.Frame

noncomputable section

namespace Cert.ReadBack

open Idealize.ShloMosaic

/-- Two zeros, however spelt. -/
theorem hz2 : (![0, 0] : Fin 2 → ℕ) = fun _ => 0 := by funext a; fin_cases a <;> rfl

section ReadBack
variable {Val : EltTy → Type} [∀ e, Nonempty (Val e)] {sg : RefSig} {κ : Kind} {sp : Space} {d : Fin 2 → ℕ} {e : EltTy}

/-- A load of a whole rank-2 buffer reads its contents. -/
theorem readAt_whole {m : Memref sg κ sp (⟨2, d⟩ : Shape) e} (h : m.IsWhole)
    (inb : ∀ a, (![0, 0] : Fin 2 → ℕ) a + (⟨2, d⟩ : Shape).size a ≤ (⟨2, d⟩ : Shape).size a) (X : (⟨2, d⟩ : Shape).Idx → Val e) :
    View.readAt Val m.view (Rect.unit (s := ⟨2, d⟩) ![0, 0] (⟨2, d⟩ : Shape).size inb).toLoadRect (h.unread X) = X := by
  rw [View.readAt_eq_ld, h.read_unread, View.ld_unit_zero hz2]

/-- One store covering a whole rank-2 buffer leaves its payload, whatever the buffer held. -/
theorem read_writes_whole (v : View sg κ sp (⟨2, d⟩ : Shape) e) (f : v.ty.Contents Val)
    (inb : ∀ a, (![0, 0] : Fin 2 → ℕ) a + (⟨2, d⟩ : Shape).size a ≤ (⟨2, d⟩ : Shape).size a) (w : (⟨2, d⟩ : Shape).Idx → Val e) :
    v.read Val (v.writes Val f [(⟨Rect.unit (s := ⟨2, d⟩) ![0, 0] (⟨2, d⟩ : Shape).size inb, w⟩ : View.Piece Val (⟨2, d⟩ : Shape) e)]) = w := by
  rw [View.read_writes_eq_canon _ _ _ (fun y => ⟨_, List.mem_singleton_self _, View.mem_set_unit_zero hz2 inb y⟩),
    View.canon_unit_zero hz2]

/-- A load of a whole rank-2 buffer right after one store covering it reads the store's payload. -/
theorem readCov_whole (v : View sg κ sp (⟨2, d⟩ : Shape) e)
    (inb : ∀ a, (![0, 0] : Fin 2 → ℕ) a + (⟨2, d⟩ : Shape).size a ≤ (⟨2, d⟩ : Shape).size a) (w : (⟨2, d⟩ : Shape).Idx → Val e) :
    v.readCov [(⟨Rect.unit (s := ⟨2, d⟩) ![0, 0] (⟨2, d⟩ : Shape).size inb, w⟩ : View.Piece Val (⟨2, d⟩ : Shape) e)]
      (Rect.unit (s := ⟨2, d⟩) ![0, 0] (⟨2, d⟩ : Shape).size inb).toLoadRect = w :=
  View.readCov_unit_zero v hz2 inb w
end ReadBack

end Cert.ReadBack

end
-- ==== Proof.RunABits.lean ====
/-
  At the grid's first point: the features are cast into their buffer, then the first pass's row block is computed from that cast and stored at its rows of the hidden-layer buffer; the results' buffers and the second cast's buffer are untouched.
  The body is run once, on any whole staging buffers and any contents, at any float instance; what it leaves in each
  buffer it stores into is the body's own arithmetic (the generated payload terms) of the contents it found.
-/
import proofs.«118011_g48653389529423_cont_8to1_c_917_10_alg».proof.Proof.Gen.Kernel.Frame
import proofs.«118011_g48653389529423_cont_8to1_c_917_10_alg».proof.Proof.Gen.Kernel.Skeleton
import proofs.«118011_g48653389529423_cont_8to1_c_917_10_alg».proof.Proof.SchedBits
import proofs.«118011_g48653389529423_cont_8to1_c_917_10_alg».proof.Proof.ReadBack
import Idealize.ShloMosaic.Lib.Pipeline.Value
import Idealize.ShloMosaic.Lib.WritesUnit
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.ReadBack

set_option maxHeartbeats 2000000 in
/-- At the grid's first point: the features are cast into their buffer, then the first pass's row block is computed from that cast and stored at its rows of the hidden-layer buffer; the results' buffers and the second cast's buffer are untouched. -/
theorem runA (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S200x128 .f32) (harg8 : arg8.IsWhole) (arg9 : Memref sig .tc .vmem S200x128 .f32) (harg9 : arg9.IsWhole) (arg10 : Memref sig .tc .vmem S10000x128 .bf16) (harg10 : arg10.IsWhole) (arg11 : Memref sig .tc .vmem S10000x128 .f32) (harg11 : arg11.IsWhole) (arg12 : Memref sig .tc .vmem S10000x128 .bf16) (harg12 : arg12.IsWhole)
    (hc1 : cond1 i) (hc2 : cond2 i) (hc3 : ¬cond3 i) (hc4 : ¬cond4 i)
    (x0 : Vec F S200x10000 .f32) (x1 : Vec F S10000x128 .f32) (x2 : Vec F S128x128 .f32) (x3 : Vec F S1x128 .f32)
    (x4 : Vec F S128x128 .f32) (x5 : Vec F S1x128 .f32) (o6 o7 : Vec F S200x128 .f32)
    (s0 : Vec F S10000x128 .bf16) (s1 : Vec F S10000x128 .f32) (s2 : Vec F S10000x128 .bf16) (E : Set ℕ) (K : PUnit → sProp 𝕄) :
    iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare o6
            ∗ owns (c : Thread nD τ) arg9 fullShare o7
            ∗ owns (c : Thread nD τ) arg10 fullShare s0
            ∗ owns (c : Thread nD τ) arg11 fullShare s1
            ∗ owns (c : Thread nD τ) arg12 fullShare s2
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare o6
            ∗ owns (c : Thread nD τ) arg9 fullShare o7
            ∗ owns (c : Thread nD τ) arg10 fullShare (k0_pay2 x1)
            ∗ owns (c : Thread nD τ) arg11 fullShare (arg11.view.read (Elt F) (arg11.view.writes (Elt F) (harg11.unread s1) [⟨Rect.unit (s := S10000x128) (k0_off1 i) S200x128.size (k0_off1_inb i hc2), k0_pay3 x0 (k0_pay2 x1) x2 x3⟩]))
            ∗ owns (c : Thread nD τ) arg12 fullShare s2) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12
  sl_exec (disch := first | exact hc1 | exact hc2 | exact hc3 | exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    (try sl_unfold_words)
    repeat rw [readAt_whole]
    repeat rw [readCov_whole]
    try rw [read_writes_whole]
  isplitl [H11]
  · iexists _; isplitr
    swap; · iexact H11
    ipureintro
    (try sl_unfold_words)
    repeat rw [readAt_whole]
    repeat rw [readCov_whole]
    try rw [read_writes_whole]
  iexists _; isplitr; · ipureintro; exact harg12.read_unread _
  iexact H12

end Cert.Kernel.Body

end
-- ==== Proof.RunBBits.lean ====
/-
  At a later point of the first pass: the row block is computed from the features' cast found in its buffer and stored at its rows of the hidden-layer buffer; nothing else changes.
  The body is run once, on any whole staging buffers and any contents, at any float instance; what it leaves in each
  buffer it stores into is the body's own arithmetic (the generated payload terms) of the contents it found.
-/
import proofs.«118011_g48653389529423_cont_8to1_c_917_10_alg».proof.Proof.Gen.Kernel.Frame
import proofs.«118011_g48653389529423_cont_8to1_c_917_10_alg».proof.Proof.Gen.Kernel.Skeleton
import proofs.«118011_g48653389529423_cont_8to1_c_917_10_alg».proof.Proof.SchedBits
import proofs.«118011_g48653389529423_cont_8to1_c_917_10_alg».proof.Proof.ReadBack
import Idealize.ShloMosaic.Lib.Pipeline.Value
import Idealize.ShloMosaic.Lib.WritesUnit
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.ReadBack

set_option maxHeartbeats 2000000 in
/-- At a later point of the first pass: the row block is computed from the features' cast found in its buffer and stored at its rows of the hidden-layer buffer; nothing else changes. -/
theorem runB (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S200x128 .f32) (harg8 : arg8.IsWhole) (arg9 : Memref sig .tc .vmem S200x128 .f32) (harg9 : arg9.IsWhole) (arg10 : Memref sig .tc .vmem S10000x128 .bf16) (harg10 : arg10.IsWhole) (arg11 : Memref sig .tc .vmem S10000x128 .f32) (harg11 : arg11.IsWhole) (arg12 : Memref sig .tc .vmem S10000x128 .bf16) (harg12 : arg12.IsWhole)
    (hc1 : ¬cond1 i) (hc2 : cond2 i) (hc3 : ¬cond3 i) (hc4 : ¬cond4 i)
    (x0 : Vec F S200x10000 .f32) (x1 : Vec F S10000x128 .f32) (x2 : Vec F S128x128 .f32) (x3 : Vec F S1x128 .f32)
    (x4 : Vec F S128x128 .f32) (x5 : Vec F S1x128 .f32) (o6 o7 : Vec F S200x128 .f32)
    (s0 : Vec F S10000x128 .bf16) (s1 : Vec F S10000x128 .f32) (s2 : Vec F S10000x128 .bf16) (E : Set ℕ) (K : PUnit → sProp 𝕄) :
    iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare o6
            ∗ owns (c : Thread nD τ) arg9 fullShare o7
            ∗ owns (c : Thread nD τ) arg10 fullShare s0
            ∗ owns (c : Thread nD τ) arg11 fullShare s1
            ∗ owns (c : Thread nD τ) arg12 fullShare s2
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare o6
            ∗ owns (c : Thread nD τ) arg9 fullShare o7
            ∗ owns (c : Thread nD τ) arg10 fullShare s0
            ∗ owns (c : Thread nD τ) arg11 fullShare (arg11.view.read (Elt F) (arg11.view.writes (Elt F) (harg11.unread s1) [⟨Rect.unit (s := S10000x128) (k0_off1 i) S200x128.size (k0_off1_inb i hc2), k0_pay3 x0 s0 x2 x3⟩]))
            ∗ owns (c : Thread nD τ) arg12 fullShare s2) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12
  sl_exec (disch := first | exact hc1 | exact hc2 | exact hc3 | exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    (try sl_unfold_words)
    repeat rw [readAt_whole]
    repeat rw [readCov_whole]
    try rw [read_writes_whole]
  iexists _; isplitr; · ipureintro; exact harg12.read_unread _
  iexact H12

end Cert.Kernel.Body

end
-- ==== Proof.RunCBits.lean ====
/-
  At the second pass's first point: the hidden layer is cast into its second buffer, and the point's two result blocks are computed from that cast and stored whole.
  The body is run once, on any whole staging buffers and any contents, at any float instance; what it leaves in each
  buffer it stores into is the body's own arithmetic (the generated payload terms) of the contents it found.
-/
import proofs.«118011_g48653389529423_cont_8to1_c_917_10_alg».proof.Proof.Gen.Kernel.Frame
import proofs.«118011_g48653389529423_cont_8to1_c_917_10_alg».proof.Proof.Gen.Kernel.Skeleton
import proofs.«118011_g48653389529423_cont_8to1_c_917_10_alg».proof.Proof.SchedBits
import proofs.«118011_g48653389529423_cont_8to1_c_917_10_alg».proof.Proof.ReadBack
import Idealize.ShloMosaic.Lib.Pipeline.Value
import Idealize.ShloMosaic.Lib.WritesUnit
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.ReadBack

set_option maxHeartbeats 2000000 in
/-- At the second pass's first point: the hidden layer is cast into its second buffer, and the point's two result blocks are computed from that cast and stored whole. -/
theorem runC (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S200x128 .f32) (harg8 : arg8.IsWhole) (arg9 : Memref sig .tc .vmem S200x128 .f32) (harg9 : arg9.IsWhole) (arg10 : Memref sig .tc .vmem S10000x128 .bf16) (harg10 : arg10.IsWhole) (arg11 : Memref sig .tc .vmem S10000x128 .f32) (harg11 : arg11.IsWhole) (arg12 : Memref sig .tc .vmem S10000x128 .bf16) (harg12 : arg12.IsWhole)
    (hc1 : ¬cond1 i) (hc2 : ¬cond2 i) (hc3 : cond3 i) (hc4 : cond4 i)
    (x0 : Vec F S200x10000 .f32) (x1 : Vec F S10000x128 .f32) (x2 : Vec F S128x128 .f32) (x3 : Vec F S1x128 .f32)
    (x4 : Vec F S128x128 .f32) (x5 : Vec F S1x128 .f32) (o6 o7 : Vec F S200x128 .f32)
    (s0 : Vec F S10000x128 .bf16) (s1 : Vec F S10000x128 .f32) (s2 : Vec F S10000x128 .bf16) (E : Set ℕ) (K : PUnit → sProp 𝕄) :
    iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare o6
            ∗ owns (c : Thread nD τ) arg9 fullShare o7
            ∗ owns (c : Thread nD τ) arg10 fullShare s0
            ∗ owns (c : Thread nD τ) arg11 fullShare s1
            ∗ owns (c : Thread nD τ) arg12 fullShare s2
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare (k0_pay6 x0 (k0_pay4 s1) x4 x5)
            ∗ owns (c : Thread nD τ) arg9 fullShare (k0_pay5 x0 (k0_pay4 s1))
            ∗ owns (c : Thread nD τ) arg10 fullShare s0
            ∗ owns (c : Thread nD τ) arg11 fullShare s1
            ∗ owns (c : Thread nD τ) arg12 fullShare (k0_pay4 s1)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12
  sl_exec (disch := first | exact hc1 | exact hc2 | exact hc3 | exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    (try sl_unfold_words)
    repeat rw [readAt_whole]
    repeat rw [readCov_whole]
    try rw [read_writes_whole]
  isplitl [H9]
  · iexists _; isplitr
    swap; · iexact H9
    ipureintro
    (try sl_unfold_words)
    repeat rw [readAt_whole]
    repeat rw [readCov_whole]
    try rw [read_writes_whole]
  isplitl [H10]
  · iexists _; isplitr; · ipureintro; exact harg10.read_unread _
    iexact H10
  isplitl [H11]
  · iexists _; isplitr; · ipureintro; exact harg11.read_unread _
    iexact H11
  iexists _; isplitr
  swap; · iexact H12
  ipureintro
  (try sl_unfold_words)
  repeat rw [readAt_whole]
  repeat rw [readCov_whole]
  try rw [read_writes_whole]

end Cert.Kernel.Body

end
-- ==== Proof.RunDBits.lean ====
/-
  At a later point of the second pass: the two result blocks are computed from the hidden layer's cast found in its buffer and stored whole.
  The body is run once, on any whole staging buffers and any contents, at any float instance; what it leaves in each
  buffer it stores into is the body's own arithmetic (the generated payload terms) of the contents it found.
-/
import proofs.«118011_g48653389529423_cont_8to1_c_917_10_alg».proof.Proof.Gen.Kernel.Frame
import proofs.«118011_g48653389529423_cont_8to1_c_917_10_alg».proof.Proof.Gen.Kernel.Skeleton
import proofs.«118011_g48653389529423_cont_8to1_c_917_10_alg».proof.Proof.SchedBits
import proofs.«118011_g48653389529423_cont_8to1_c_917_10_alg».proof.Proof.ReadBack
import Idealize.ShloMosaic.Lib.Pipeline.Value
import Idealize.ShloMosaic.Lib.WritesUnit
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.ReadBack

set_option maxHeartbeats 2000000 in
/-- At a later point of the second pass: the two result blocks are computed from the hidden layer's cast found in its buffer and stored whole. -/
theorem runD (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S200x128 .f32) (harg8 : arg8.IsWhole) (arg9 : Memref sig .tc .vmem S200x128 .f32) (harg9 : arg9.IsWhole) (arg10 : Memref sig .tc .vmem S10000x128 .bf16) (harg10 : arg10.IsWhole) (arg11 : Memref sig .tc .vmem S10000x128 .f32) (harg11 : arg11.IsWhole) (arg12 : Memref sig .tc .vmem S10000x128 .bf16) (harg12 : arg12.IsWhole)
    (hc1 : ¬cond1 i) (hc2 : ¬cond2 i) (hc3 : ¬cond3 i) (hc4 : cond4 i)
    (x0 : Vec F S200x10000 .f32) (x1 : Vec F S10000x128 .f32) (x2 : Vec F S128x128 .f32) (x3 : Vec F S1x128 .f32)
    (x4 : Vec F S128x128 .f32) (x5 : Vec F S1x128 .f32) (o6 o7 : Vec F S200x128 .f32)
    (s0 : Vec F S10000x128 .bf16) (s1 : Vec F S10000x128 .f32) (s2 : Vec F S10000x128 .bf16) (E : Set ℕ) (K : PUnit → sProp 𝕄) :
    iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare o6
            ∗ owns (c : Thread nD τ) arg9 fullShare o7
            ∗ owns (c : Thread nD τ) arg10 fullShare s0
            ∗ owns (c : Thread nD τ) arg11 fullShare s1
            ∗ owns (c : Thread nD τ) arg12 fullShare s2
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare (k0_pay6 x0 s2 x4 x5)
            ∗ owns (c : Thread nD τ) arg9 fullShare (k0_pay5 x0 s2)
            ∗ owns (c : Thread nD τ) arg10 fullShare s0
            ∗ owns (c : Thread nD τ) arg11 fullShare s1
            ∗ owns (c : Thread nD τ) arg12 fullShare s2) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12
  sl_exec (disch := first | exact hc1 | exact hc2 | exact hc3 | exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    (try sl_unfold_words)
    repeat rw [readAt_whole]
    repeat rw [readCov_whole]
    try rw [read_writes_whole]
  isplitl [H9]
  · iexists _; isplitr
    swap; · iexact H9
    ipureintro
    (try sl_unfold_words)
    repeat rw [readAt_whole]
    repeat rw [readCov_whole]
    try rw [read_writes_whole]
  isplitl [H10]
  · iexists _; isplitr; · ipureintro; exact harg10.read_unread _
    iexact H10
  isplitl [H11]
  · iexists _; isplitr; · ipureintro; exact harg11.read_unread _
    iexact H11
  iexists _; isplitr; · ipureintro; exact harg12.read_unread _
  iexact H12

end Cert.Kernel.Body

end
-- ==== Proof.ObligBits.lean ====
/-
  The body obligation and the run. At every point the body finds each operand's buffer at its block and the three
  carried buffers at contents satisfying the invariant; which of its branches run is decided by the point. A first-pass
  point leaves the result windows' buffers as it found them (they are idle there and not written back) and moves the
  invariant by the rows it stored; a second-pass point leaves the two result blocks — computed from the hidden layer's
  cast, which by then is in place — and keeps the carried buffers. Before the first point the carried buffers hold
  anything; after the last they are forgotten again. Stated at any float instance.
-/
import proofs.«118011_g48653389529423_cont_8to1_c_917_10_alg».proof.Proof.Gen.Kernel.Frame
import proofs.«118011_g48653389529423_cont_8to1_c_917_10_alg».proof.Proof.Gen.Kernel.Skeleton
import proofs.«118011_g48653389529423_cont_8to1_c_917_10_alg».proof.Proof.InvBits
import proofs.«118011_g48653389529423_cont_8to1_c_917_10_alg».proof.Proof.RunABits
import proofs.«118011_g48653389529423_cont_8to1_c_917_10_alg».proof.Proof.RunBBits
import proofs.«118011_g48653389529423_cont_8to1_c_917_10_alg».proof.Proof.RunCBits
import proofs.«118011_g48653389529423_cont_8to1_c_917_10_alg».proof.Proof.RunDBits
import Idealize.ShloMosaic.Lib.Pipeline.Value
import Idealize.ShloMosaic.Lib.WritesUnit
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point `t`, and that it is a whole buffer. -/
abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S200x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S200x128 .f32 := win0_7.stage (cfg0.slots t 7)
abbrev hs0_7 (t : Fin cfg0.N) : (ms0_7 t).IsWhole := hstage0_7 ((cfg0.slots t 7).cast nbuf0_7)

/-- The invariant the launch hands the region: the three buffers of the kernel's own at some contents, the generator
    register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- The body at any point, by the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0_0 t) fullShare ((dats m 0 c).after 0 t) from by
    unfold Dat.leavesExact; rw [live0 t], after0_0]
  rw [show (dats m 0 c).leavesExact 1 t = owns (c : Thread nD τ) (ms0_1 t) fullShare ((dats m 0 c).after 1 t) from by
    unfold Dat.leavesExact; rw [live1 t], after0_1]
  rw [show (dats m 0 c).leavesExact 2 t = owns (c : Thread nD τ) (ms0_2 t) fullShare ((dats m 0 c).after 2 t) from by
    unfold Dat.leavesExact; rw [live2 t], after0_2]
  rw [show (dats m 0 c).leavesExact 3 t = owns (c : Thread nD τ) (ms0_3 t) fullShare ((dats m 0 c).after 3 t) from by
    unfold Dat.leavesExact; rw [live3 t], after0_3]
  rw [show (dats m 0 c).leavesExact 4 t = owns (c : Thread nD τ) (ms0_4 t) fullShare ((dats m 0 c).after 4 t) from by
    unfold Dat.leavesExact; rw [live4 t], after0_4]
  rw [show (dats m 0 c).leavesExact 5 t = owns (c : Thread nD τ) (ms0_5 t) fullShare ((dats m 0 c).after 5 t) from by
    unfold Dat.leavesExact; rw [live5 t], after0_5]
  have hN : t.val < 100 := lt_of_lt_of_eq t.isLt N_0
  unfold PhiS
  by_cases h2 : t.val < 50
  · rw [Dat.leavesExact_idle (dats m 0 c) 6 t (idle6 t h2) (noFlush6 t h2), Dat.leavesExact_idle (dats m 0 c) 7 t (idle7 t h2) (noFlush7 t h2)]
    have hc2 : cond2 (grid0.coords t) := (hcond2 t).mpr h2
    have hc3 : ¬cond3 (grid0.coords t) := fun h => by have := (hcond3 t).mp h; omega
    have hc4 : ¬cond4 (grid0.coords t) := fun h => by have := (hcond4 t).mp h; omega
    iintro ⟨⟨%f0, %f1, %f2, HS0, HS1, HS2, %hinv, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    by_cases h1 : t.val = 0
    · have hc1 : cond1 (grid0.coords t) := (hcond1 t).mpr h1
      iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc1 hc2 hc3 hc4
        (adjBlk m c t) (xBlk m c t) (w1Blk m c t) (b1Blk m c t) (w2Blk m c t) (b2Blk m c t) ((dats m 0 c).before 6 t d6) ((dats m 0 c).before 7 t d7) f0 f1 f2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · iexists _; iexists _; iexists _
        isplitl [HS0]; · iexact HS0
        isplitl [HS1]; · iexact HS1
        isplitl [HS2]; · iexact HS2
        isplitr
        · ipureintro
          exact inv_pass1 m c t h2 scM1.view _ (k0_off1_inb (grid0.coords t) hc2) f0 (k0_pay2 (xBlk m c t)) f1 f2 (Memref.IsWhole.read_unread _ f1) (by obtain rfl : t = t0 := Fin.ext h1; rfl) hinv
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · have hc1 : ¬cond1 (grid0.coords t) := fun h => h1 ((hcond1 t).mp h)
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc1 hc2 hc3 hc4
        (adjBlk m c t) (xBlk m c t) (w1Blk m c t) (b1Blk m c t) (w2Blk m c t) (b2Blk m c t) ((dats m 0 c).before 6 t d6) ((dats m 0 c).before 7 t d7) f0 f1 f2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · iexists _; iexists _; iexists _
        isplitl [HS0]; · iexact HS0
        isplitl [HS1]; · iexact HS1
        isplitl [HS2]; · iexact HS2
        isplitr
        · ipureintro
          exact inv_pass1 m c t h2 scM1.view _ (k0_off1_inb (grid0.coords t) hc2) f0 f0 f1 f2 (Memref.IsWhole.read_unread _ f1) (hinv.1 (by omega)) hinv
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have h2' : 50 ≤ t.val := by omega
    rw [show (dats m 0 c).leavesExact 6 t = owns (c : Thread nD τ) (ms0_6 t) fullShare ((dats m 0 c).after 6 t) from by
      unfold Dat.leavesExact; rw [live6 t h2'], after0_6]
    rw [show (dats m 0 c).leavesExact 7 t = owns (c : Thread nD τ) (ms0_7 t) fullShare ((dats m 0 c).after 7 t) from by
      unfold Dat.leavesExact; rw [live7 t h2'], after0_7]
    unfold embBlk outBlk
    have hc1 : ¬cond1 (grid0.coords t) := fun h => by have := (hcond1 t).mp h; omega
    have hc2 : ¬cond2 (grid0.coords t) := fun h => h2 ((hcond2 t).mp h)
    have hc4 : cond4 (grid0.coords t) := (hcond4 t).mpr h2'
    iintro ⟨⟨%f0, %f1, %f2, HS0, HS1, HS2, %hinv, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    by_cases h3 : t.val = 50
    · have hc3 : cond3 (grid0.coords t) := (hcond3 t).mpr h3
      obtain rfl := inv_full m c t.val h2' f0 f1 f2 hinv
      unfold castH
      iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc1 hc2 hc3 hc4
        (adjBlk m c t) (xBlk m c t) (w1Blk m c t) (b1Blk m c t) (w2Blk m c t) (b2Blk m c t) ((dats m 0 c).before 6 t d6) ((dats m 0 c).before 7 t d7) f0 (hidArr m c) f2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · iexists _; iexists _; iexists _
        isplitl [HS0]; · iexact HS0
        isplitl [HS1]; · iexact HS1
        isplitl [HS2]; · iexact HS2
        isplitr
        · ipureintro
          exact inv_pass2 m c t h2' f0 _ _ _ rfl hinv
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc3 : ¬cond3 (grid0.coords t) := fun h => h3 ((hcond3 t).mp h)
      obtain rfl := hinv.2.2 (by omega)
      iapply (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc1 hc2 hc3 hc4
        (adjBlk m c t) (xBlk m c t) (w1Blk m c t) (b1Blk m c t) (w2Blk m c t) (b2Blk m c t) ((dats m 0 c).before 6 t d6) ((dats m 0 c).before 7 t d7) f0 f1 (castH m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · iexists _; iexists _; iexists _
        isplitl [HS0]; · iexact HS0
        isplitl [HS1]; · iexact HS1
        isplitl [HS2]; · iexact HS2
        isplitr
        · ipureintro
          exact inv_pass2 m c t h2' f0 _ _ _ rfl hinv
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiA0_eq]; unfold PhiS
  iintro ⟨⟨⟨%d0, HS0⟩, ⟨%d1, HS1⟩, ⟨%d2, HS2⟩⟩, Hg⟩
  iexists d0; iexists d1; iexists d2
  isplitl [HS0]; · iexact HS0
  isplitl [HS1]; · iexact HS1
  isplitl [HS2]; · iexact HS2
  isplitr
  · ipureintro; exact inv_zero m c d0 d1 d2
  iexact Hg

/-- After the last point the carried buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]; unfold PhiS
  iintro ⟨%f0, %f1, %f2, HS0, HS1, HS2, %hinv, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of @main terminates, every array of the pipeline ending at what the proof data compute
    and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs to the end, faults nowhere and leaves its six arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The same run read at the two result arrays as well: each ends at what the proof data compute for its window. -/
theorem run_results : θ_run defs (onTc (τ := τ) (main (F := F))) ⟨m, fun _ => 0, ρ⟩ (fun r => ∀ c : Dev nD,
      r.2.mem ((c.tc : Thread nD τ).loc main_v2_0) = (dats m 0 c).arrAt 6 cfg0.N
      ∧ r.2.mem ((c.tc : Thread nD τ).loc main_v2_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 6, (h c).1 7,
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.Kernel.Body

end
-- ==== Proof.SchedIdeal.lean ====
/-
  The grid has 100 points, t = 50·p + i for pass p ∈ {0, 1} and row block i ∈ {0, …, 49}. Everything the body or the
  pipeline decides from the point is stated here in closed form over t and decided once over the grid: which of the
  body's four branches run (the feature cast at t = 0, the first pass at t < 50, the hidden-layer cast at t = 50, the
  second pass at t ≥ 50), where the two result windows are idle and where they are written back (idle and kept through
  the first pass; stored and written back at every point of the second), and the row offset 200·i of the first pass's
  store into the hidden-layer buffer.
-/
import proofs.«118011_g48653389529423_cont_8to1_c_917_10_alg».proof.Proof.Gen.KernelIdeal.Points

noncomputable section

namespace Cert.KernelIdeal.Body

open Cert.KernelIdeal Cert.KernelIdeal.Gen
open Idealize.ShloMosaic Idealize.ShloMosaic.TcCoe
open Idealize.SL Idealize.SL.Sem

/-- The body's first branch (taken only at the grid's first point): both coordinates zero. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The second branch: the first pass over the row blocks. -/
abbrev cond2 (i : grid0.Coords) : Prop := k0_cond2 i = 1#1
/-- The third branch (taken only at the second pass's first point). -/
abbrev cond3 (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
/-- The fourth branch: the second pass. -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val < 50 :=
  (by decide +kernel : ∀ t : Fin grid0.N, cond2 (grid0.coords t) ↔ t.val < 50)
theorem hcond3 : ∀ t : Fin cfg0.N, cond3 (grid0.coords t) ↔ t.val = 50 :=
  (by decide +kernel : ∀ t : Fin grid0.N, cond3 (grid0.coords t) ↔ t.val = 50)
theorem hcond4 : ∀ t : Fin cfg0.N, cond4 (grid0.coords t) ↔ 50 ≤ t.val :=
  (by decide +kernel : ∀ t : Fin grid0.N, cond4 (grid0.coords t) ↔ 50 ≤ t.val)

/-- The six operand windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel

/-- Through the first pass the two result windows are idle and not written back; -/
theorem idle6 : ∀ t : Fin cfg0.N, t.val < 50 → cfg0.idle 6 (grid0.coords t) = true := by decide +kernel
theorem idle7 : ∀ t : Fin cfg0.N, t.val < 50 → cfg0.idle 7 (grid0.coords t) = true := by decide +kernel
theorem noFlush6 : ∀ t : Fin cfg0.N, t.val < 50 → (cfg0.win 6).flush t = false :=
  (by decide +kernel : ∀ t : Fin grid0.N, t.val < 50 → win0_6.flush t = false)
theorem noFlush7 : ∀ t : Fin cfg0.N, t.val < 50 → (cfg0.win 7).flush t = false :=
  (by decide +kernel : ∀ t : Fin grid0.N, t.val < 50 → win0_7.flush t = false)
/-- in the second pass they are stored at every point and written back at every point. -/
theorem live6 : ∀ t : Fin cfg0.N, 50 ≤ t.val → cfg0.idle 6 (grid0.coords t) = false := by decide +kernel
theorem live7 : ∀ t : Fin cfg0.N, 50 ≤ t.val → cfg0.idle 7 (grid0.coords t) = false := by decide +kernel
theorem flush6 : ∀ t : Fin cfg0.N, (cfg0.win 6).flush t = true ↔ 50 ≤ t.val :=
  (by decide +kernel : ∀ t : Fin grid0.N, win0_6.flush t = true ↔ 50 ≤ t.val)
theorem flush7 : ∀ t : Fin cfg0.N, (cfg0.win 7).flush t = true ↔ 50 ≤ t.val :=
  (by decide +kernel : ∀ t : Fin grid0.N, win0_7.flush t = true ↔ 50 ≤ t.val)

/-- The first pass stores its 200 rows at row 200·i, column 0 of the hidden-layer buffer. -/
theorem off1_eq : ∀ t : Fin cfg0.N, t.val < 50 → k0_off1 (grid0.coords t) = ![200 * t.val, 0] :=
  (by decide +kernel : ∀ t : Fin grid0.N, t.val < 50 → k0_off1 (grid0.coords t) = ![200 * t.val, 0])

/-- The adjacency window's block index is the row block i = t mod 50 in both passes; a result window's is 0 through the
    first pass and i in the second. -/
theorem index0 : ∀ t : Fin cfg0.N, win0_0.index t = ![t.val % 50, 0] :=
  (by decide +kernel : ∀ t : Fin grid0.N, win0_0.index t = ![t.val % 50, 0])
theorem index6 : ∀ t : Fin cfg0.N, 50 ≤ t.val → win0_6.index t = ![t.val - 50, 0] :=
  (by decide +kernel : ∀ t : Fin grid0.N, 50 ≤ t.val → win0_6.index t = ![t.val - 50, 0])
theorem index7 : ∀ t : Fin cfg0.N, 50 ≤ t.val → win0_7.index t = ![t.val - 50, 0] :=
  (by decide +kernel : ∀ t : Fin grid0.N, 50 ≤ t.val → win0_7.index t = ![t.val - 50, 0])

end Cert.KernelIdeal.Body

end
-- ==== Proof.DataIdeal.lean ====
/-
  The proof data of the one pipeline. Row block i of the adjacency is staged at points i (first pass) and 50 + i
  (second pass). Three buffers of the kernel's own are carried from point to point: the features' cast C (written at
  point 0), the hidden layer H (rows [200·i, 200·i + 200) written at point i of the first pass) and its cast (written
  at point 50). Their contents are named through the body's own arithmetic:
      C      = cast of the features' block,
      H_i    = the first pass's term of adjacency block i, C, the first weights and bias   (200 rows),
      H      = the array whose rows [200·i, 200·i + 200) are H_i,
      E_t, Y_t = the second pass's terms of adjacency block t, the cast of H, the second weights and bias.
  Between points the invariant holds the three buffers at SOME contents of which it states: C from point 1 on, the rows
  of every first-pass point already run, the cast of H from point 51 on. Stated at any float instance.
-/
import proofs.«118011_g48653389529423_cont_8to1_c_917_10_alg».proof.Proof.Gen.KernelIdeal.Frame
import proofs.«118011_g48653389529423_cont_8to1_c_917_10_alg».proof.Proof.Gen.KernelIdeal.Skeleton
import proofs.«118011_g48653389529423_cont_8to1_c_917_10_alg».proof.Proof.SchedIdeal
import Idealize.ShloMosaic.Lib.Pipeline.Value
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks, under their literal types -/

abbrev adjBlk (c : Dev nD) (t : Fin cfg0.N) : Vec F S200x10000 .f32 := iblk m c 0 t
abbrev xBlk (c : Dev nD) (t : Fin cfg0.N) : Vec F S10000x128 .f32 := iblk m c 1 t
abbrev w1Blk (c : Dev nD) (t : Fin cfg0.N) : Vec F S128x128 .f32 := iblk m c 2 t
abbrev b1Blk (c : Dev nD) (t : Fin cfg0.N) : Vec F S1x128 .f32 := iblk m c 3 t
abbrev w2Blk (c : Dev nD) (t : Fin cfg0.N) : Vec F S128x128 .f32 := iblk m c 4 t
abbrev b2Blk (c : Dev nD) (t : Fin cfg0.N) : Vec F S1x128 .f32 := iblk m c 5 t

/-- The grid's first point. -/
abbrev t0 : Fin cfg0.N := ⟨0, by decide⟩

/-! ## What the carried buffers and the results hold -/

/-- The features' cast, as point 0 leaves it. -/
def castX (c : Dev nD) : Vec F S10000x128 .bf16 := k0_pay2 (xBlk m c t0)

/-- The 200 hidden-layer rows the first pass computes at point `t`. -/
def hidRows (c : Dev nD) (t : Fin cfg0.N) : Vec F S200x128 .f32 :=
  k0_pay3 (adjBlk m c t) (castX m c) (w1Blk m c t) (b1Blk m c t)

/-- Row `a` of the hidden layer lies in block `a / 200`, a point of the first pass. -/
theorem rowBlock_lt (a : Fin 10000) : a.val / 200 < cfg0.N := by
  have h := a.isLt
  have : a.val / 200 < 50 := by omega
  exact lt_of_lt_of_le this (by decide)

/-- The hidden layer: row `a` is row `a mod 200` of the rows computed at point `a / 200`. -/
def hidArr (c : Dev nD) : Vec F S10000x128 .f32 := fun y =>
  hidRows m c ⟨(y 0).val / 200, rowBlock_lt (y 0)⟩ (ValueIdx.ix2 ⟨(y 0).val % 200, Nat.mod_lt _ (by decide)⟩ (y 1))

/-- The hidden layer's cast, as point 50 leaves it. -/
def castH (c : Dev nD) : Vec F S10000x128 .bf16 := k0_pay4 (hidArr m c)

/-- The embedding block the second pass stores at point `t`. -/
def embBlk (c : Dev nD) (t : Fin cfg0.N) : Vec F S200x128 .f32 := k0_pay5 (adjBlk m c t) (castH m c)

/-- The output block the second pass stores at point `t`. -/
def outBlk (c : Dev nD) (t : Fin cfg0.N) : Vec F S200x128 .f32 := k0_pay6 (adjBlk m c t) (castH m c) (w2Blk m c t) (b2Blk m c t)

/-! ## The invariant between points -/

/-- Row `200·a + r` of a 10000-row array, for a block `a < 50`. -/
abbrev rowOf (a : ℕ) (ha : a < 50) (r : Fin 200) : Fin 10000 := ⟨200 * a + r.val, by have := r.isLt; omega⟩

/-- What is known of the three carried buffers' contents before point `n`. -/
def Inv (c : Dev nD) (n : ℕ) (f0 : Vec F S10000x128 .bf16) (f1 : Vec F S10000x128 .f32) (f2 : Vec F S10000x128 .bf16) : Prop :=
  (1 ≤ n → f0 = castX m c)
  ∧ (∀ t : Fin cfg0.N, t.val < n → ∀ (ht : t.val < 50) (r : Fin 200) (o : Fin 128),
      f1 (ValueIdx.ix2 (rowOf t.val ht r) o) = hidRows m c t (ValueIdx.ix2 r o))
  ∧ (51 ≤ n → f2 = castH m c)

/-- The three carried buffers, whole. -/
abbrev scM0 : Memref sig .tc .vmem S10000x128 .bf16 := Memref.whole cc0_scratch0
abbrev scM1 : Memref sig .tc .vmem S10000x128 .f32 := Memref.whole cc0_scratch1
abbrev scM2 : Memref sig .tc .vmem S10000x128 .bf16 := Memref.whole cc0_scratch2

/-- The region invariant before point `n`: the three buffers at contents satisfying `Inv`, and the generator register. -/
def PhiS (c : Dev nD) (n : ℕ) : sProp 𝕄 :=
  iprop(∃ f0 f1 f2, owns (c : Thread nD τ) scM0 fullShare f0 ∗ owns (c : Thread nD τ) scM1 fullShare f1
    ∗ owns (c : Thread nD τ) scM2 fullShare f2 ∗ ⌜Inv m c n f0 f1 f2⌝ ∗ (∃ r, prngReg c r))

/-! ## The proof data -/

/-- The arrays as the region finds them; after the body each operand's buffer at its block and each result's at the
    second pass's term of the point; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
    | ⟨7, _⟩ => embBlk m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk m c t := by dsimp only [dats]
theorem after0_7 (c : Dev nD) (t : Fin cfg0.N) : (dats m 0 c).after 7 t = embBlk m c t := by dsimp only [dats]

/-- Each operand's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.KernelIdeal.Body

end
-- ==== Proof.InvIdeal.lean ====
/-
  How the invariant moves from one point to the next. A first-pass point t stores 200 rows at rows [200·t, 200·t + 200)
  of the hidden-layer buffer: those rows now hold the point's term, every other row what it held. Once the 50 points
  of the first pass have run, every row a = 200·(a / 200) + a mod 200 is the term of point a / 200, so the buffer holds
  the hidden layer whole.
-/
import proofs.«118011_g48653389529423_cont_8to1_c_917_10_alg».proof.Proof.Gen.KernelIdeal.Frame
import proofs.«118011_g48653389529423_cont_8to1_c_917_10_alg».proof.Proof.Gen.KernelIdeal.Skeleton
import proofs.«118011_g48653389529423_cont_8to1_c_917_10_alg».proof.Proof.DataIdeal
import Idealize.ShloMosaic.Lib.Pipeline.Value
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The rows a first-pass store writes read the stored payload. -/
theorem rows_new {sg : RefSig} {κ : Kind} {sp : Space} (v : View sg κ sp S10000x128 .f32) (f : v.ty.Contents (Elt F))
    {off : Fin 2 → ℕ} (inb : ∀ a : Fin 2, off a + S200x128.size a ≤ S10000x128.size a) (pay : Vec F S200x128 .f32)
    (a : ℕ) (ha : a < 50) (hoff : off = ![200 * a, 0]) (r : Fin 200) (o : Fin 128) :
    v.read (Elt F) (v.writes (Elt F) f [(⟨Rect.unit (s := S10000x128) off S200x128.size inb, pay⟩ : View.Piece (Elt F) S10000x128 .f32)])
        (ValueIdx.ix2 (rowOf a ha r) o) = pay (ValueIdx.ix2 r o) :=
  View.read_writes_cons_rows_of_mem v f inb pay [] (ValueIdx.ix2 (rowOf a ha r) o) (ValueIdx.ix2 r o) hoff rfl rfl

/-- Every other row reads what the buffer held. -/
theorem rows_old {sg : RefSig} {κ : Kind} {sp : Space} (v : View sg κ sp S10000x128 .f32) (f : v.ty.Contents (Elt F))
    {off : Fin 2 → ℕ} (inb : ∀ a : Fin 2, off a + S200x128.size a ≤ S10000x128.size a) (pay : Vec F S200x128 .f32)
    (a : ℕ) (hoff : off = ![200 * a, 0]) (y : S10000x128.Idx) (hy : (y 0).val < 200 * a ∨ 200 * a + 200 ≤ (y 0).val) :
    v.read (Elt F) (v.writes (Elt F) f [(⟨Rect.unit (s := S10000x128) off S200x128.size inb, pay⟩ : View.Piece (Elt F) S10000x128 .f32)]) y
      = v.read (Elt F) f y :=
  View.read_writes_cons_rows_of_not_mem v f inb pay [] y hoff rfl hy

/-- Nothing is known, and nothing asked, before the first point. -/
theorem inv_zero (c : Dev nD) (f0 : Vec F S10000x128 .bf16) (f1 : Vec F S10000x128 .f32) (f2 : Vec F S10000x128 .bf16) :
    Inv m c 0 f0 f1 f2 :=
  ⟨fun h => absurd h (by omega), fun t h => absurd h (by omega), fun h => absurd h (by omega)⟩

/-- A first-pass point: the features' cast is (or was already) in place, the point's rows are stored over the
    hidden-layer buffer `v` reads, the rest is kept. -/
theorem inv_pass1 (c : Dev nD) (t : Fin cfg0.N) (ht : t.val < 50)
    {sg : RefSig} {κ : Kind} {sp : Space} (v : View sg κ sp S10000x128 .f32) (g : v.ty.Contents (Elt F))
    (inb : ∀ a : Fin 2, (k0_off1 (grid0.coords t)) a + S200x128.size a ≤ S10000x128.size a)
    (f0 f0' : Vec F S10000x128 .bf16) (f1 : Vec F S10000x128 .f32) (f2 : Vec F S10000x128 .bf16)
    (hg : v.read (Elt F) g = f1) (h0 : f0' = castX m c) (hinv : Inv m c t.val f0 f1 f2) :
    Inv m c (t.val + 1) f0'
      (v.read (Elt F) (v.writes (Elt F) g [(⟨Rect.unit (s := S10000x128) (k0_off1 (grid0.coords t)) S200x128.size inb,
        k0_pay3 (adjBlk m c t) f0' (w1Blk m c t) (b1Blk m c t)⟩ : View.Piece (Elt F) S10000x128 .f32)])) f2 := by
  refine ⟨fun _ => h0, fun t' ht' h50 r o => ?_, fun h => absurd h (by omega)⟩
  by_cases he : t'.val = t.val
  · obtain rfl : t' = t := Fin.ext he
    rw [rows_new v g inb _ t'.val h50 (off1_eq t' h50) r o, h0]; rfl
  · rw [rows_old v g inb _ t.val (off1_eq t ht) _ (by
      show (200 * t'.val + r.val < 200 * t.val ∨ 200 * t.val + 200 ≤ 200 * t'.val + r.val)
      have := r.isLt; omega), hg]
    exact hinv.2.1 t' (by omega) h50 r o

/-- After the first pass the hidden-layer buffer holds the hidden layer whole. -/
theorem inv_full (c : Dev nD) (n : ℕ) (hn : 50 ≤ n) (f0 : Vec F S10000x128 .bf16) (f1 : Vec F S10000x128 .f32) (f2 : Vec F S10000x128 .bf16)
    (hinv : Inv m c n f0 f1 f2) : f1 = hidArr m c := by
  funext y
  have hy0 : (y 0).val < 10000 := (y 0).isLt
  have ha : (y 0).val / 200 < 50 := by omega
  have hr : (y 0).val % 200 < 200 := Nat.mod_lt _ (by decide)
  have e : y = ValueIdx.ix2 (rowOf ((y 0).val / 200) ha ⟨(y 0).val % 200, hr⟩) (y 1) := by
    funext a
    match a with
    | ⟨0, _⟩ => exact Fin.ext (by show (y 0).val = 200 * ((y 0).val / 200) + (y 0).val % 200; omega)
    | ⟨1, _⟩ => rfl
  have h := hinv.2.1 ⟨(y 0).val / 200, rowBlock_lt (y 0)⟩ (by show (y 0).val / 200 < n; omega) ha ⟨(y 0).val % 200, hr⟩ (y 1)
  calc f1 y = f1 (ValueIdx.ix2 (rowOf ((y 0).val / 200) ha ⟨(y 0).val % 200, hr⟩) (y 1)) := congrArg f1 e
    _ = _ := h

/-- A second-pass point: the hidden layer's cast is (or was already) in place; the other two buffers are kept. -/
theorem inv_pass2 (c : Dev nD) (t : Fin cfg0.N) (ht : 50 ≤ t.val)
    (f0 : Vec F S10000x128 .bf16) (f1 : Vec F S10000x128 .f32) (f2 f2' : Vec F S10000x128 .bf16)
    (h2 : f2' = castH m c) (hinv : Inv m c t.val f0 f1 f2) : Inv m c (t.val + 1) f0 f1 f2' :=
  ⟨fun _ => hinv.1 (by omega), fun t' _ h50 r o => hinv.2.1 t' (by omega) h50 r o, fun _ => h2⟩

end Cert.KernelIdeal.Body

end
-- ==== Proof.RunAIdeal.lean ====
/-
  At the grid's first point: the features are cast into their buffer, then the first pass's row block is computed from that cast and stored at its rows of the hidden-layer buffer; the results' buffers and the second cast's buffer are untouched.
  The body is run once, on any whole staging buffers and any contents, at any float instance; what it leaves in each
  buffer it stores into is the body's own arithmetic (the generated payload terms) of the contents it found.
-/
import proofs.«118011_g48653389529423_cont_8to1_c_917_10_alg».proof.Proof.Gen.KernelIdeal.Frame
import proofs.«118011_g48653389529423_cont_8to1_c_917_10_alg».proof.Proof.Gen.KernelIdeal.Skeleton
import proofs.«118011_g48653389529423_cont_8to1_c_917_10_alg».proof.Proof.SchedIdeal
import proofs.«118011_g48653389529423_cont_8to1_c_917_10_alg».proof.Proof.ReadBack
import Idealize.ShloMosaic.Lib.Pipeline.Value
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.ReadBack

set_option maxHeartbeats 2000000 in
/-- At the grid's first point: the features are cast into their buffer, then the first pass's row block is computed from that cast and stored at its rows of the hidden-layer buffer; the results' buffers and the second cast's buffer are untouched. -/
theorem runA (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S200x128 .f32) (harg8 : arg8.IsWhole) (arg9 : Memref sig .tc .vmem S200x128 .f32) (harg9 : arg9.IsWhole) (arg10 : Memref sig .tc .vmem S10000x128 .bf16) (harg10 : arg10.IsWhole) (arg11 : Memref sig .tc .vmem S10000x128 .f32) (harg11 : arg11.IsWhole) (arg12 : Memref sig .tc .vmem S10000x128 .bf16) (harg12 : arg12.IsWhole)
    (hc1 : cond1 i) (hc2 : cond2 i) (hc3 : ¬cond3 i) (hc4 : ¬cond4 i)
    (x0 : Vec F S200x10000 .f32) (x1 : Vec F S10000x128 .f32) (x2 : Vec F S128x128 .f32) (x3 : Vec F S1x128 .f32)
    (x4 : Vec F S128x128 .f32) (x5 : Vec F S1x128 .f32) (o6 o7 : Vec F S200x128 .f32)
    (s0 : Vec F S10000x128 .bf16) (s1 : Vec F S10000x128 .f32) (s2 : Vec F S10000x128 .bf16) (E : Set ℕ) (K : PUnit → sProp 𝕄) :
    iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare o6
            ∗ owns (c : Thread nD τ) arg9 fullShare o7
            ∗ owns (c : Thread nD τ) arg10 fullShare s0
            ∗ owns (c : Thread nD τ) arg11 fullShare s1
            ∗ owns (c : Thread nD τ) arg12 fullShare s2
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare o6
            ∗ owns (c : Thread nD τ) arg9 fullShare o7
            ∗ owns (c : Thread nD τ) arg10 fullShare (k0_pay2 x1)
            ∗ owns (c : Thread nD τ) arg11 fullShare (arg11.view.read (Elt F) (arg11.view.writes (Elt F) (harg11.unread s1) [⟨Rect.unit (s := S10000x128) (k0_off1 i) S200x128.size (k0_off1_inb i hc2), k0_pay3 x0 (k0_pay2 x1) x2 x3⟩]))
            ∗ owns (c : Thread nD τ) arg12 fullShare s2) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12
  sl_exec (disch := first | exact hc1 | exact hc2 | exact hc3 | exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    (try sl_unfold_words)
    repeat rw [readAt_whole]
    repeat rw [readCov_whole]
    try rw [read_writes_whole]
  isplitl [H11]
  · iexists _; isplitr
    swap; · iexact H11
    ipureintro
    (try sl_unfold_words)
    repeat rw [readAt_whole]
    repeat rw [readCov_whole]
    try rw [read_writes_whole]
  iexists _; isplitr; · ipureintro; exact harg12.read_unread _
  iexact H12

end Cert.KernelIdeal.Body

end
-- ==== Proof.RunBIdeal.lean ====
/-
  At a later point of the first pass: the row block is computed from the features' cast found in its buffer and stored at its rows of the hidden-layer buffer; nothing else changes.
  The body is run once, on any whole staging buffers and any contents, at any float instance; what it leaves in each
  buffer it stores into is the body's own arithmetic (the generated payload terms) of the contents it found.
-/
import proofs.«118011_g48653389529423_cont_8to1_c_917_10_alg».proof.Proof.Gen.KernelIdeal.Frame
import proofs.«118011_g48653389529423_cont_8to1_c_917_10_alg».proof.Proof.Gen.KernelIdeal.Skeleton
import proofs.«118011_g48653389529423_cont_8to1_c_917_10_alg».proof.Proof.SchedIdeal
import proofs.«118011_g48653389529423_cont_8to1_c_917_10_alg».proof.Proof.ReadBack
import Idealize.ShloMosaic.Lib.Pipeline.Value
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.ReadBack

set_option maxHeartbeats 2000000 in
/-- At a later point of the first pass: the row block is computed from the features' cast found in its buffer and stored at its rows of the hidden-layer buffer; nothing else changes. -/
theorem runB (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S200x128 .f32) (harg8 : arg8.IsWhole) (arg9 : Memref sig .tc .vmem S200x128 .f32) (harg9 : arg9.IsWhole) (arg10 : Memref sig .tc .vmem S10000x128 .bf16) (harg10 : arg10.IsWhole) (arg11 : Memref sig .tc .vmem S10000x128 .f32) (harg11 : arg11.IsWhole) (arg12 : Memref sig .tc .vmem S10000x128 .bf16) (harg12 : arg12.IsWhole)
    (hc1 : ¬cond1 i) (hc2 : cond2 i) (hc3 : ¬cond3 i) (hc4 : ¬cond4 i)
    (x0 : Vec F S200x10000 .f32) (x1 : Vec F S10000x128 .f32) (x2 : Vec F S128x128 .f32) (x3 : Vec F S1x128 .f32)
    (x4 : Vec F S128x128 .f32) (x5 : Vec F S1x128 .f32) (o6 o7 : Vec F S200x128 .f32)
    (s0 : Vec F S10000x128 .bf16) (s1 : Vec F S10000x128 .f32) (s2 : Vec F S10000x128 .bf16) (E : Set ℕ) (K : PUnit → sProp 𝕄) :
    iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare o6
            ∗ owns (c : Thread nD τ) arg9 fullShare o7
            ∗ owns (c : Thread nD τ) arg10 fullShare s0
            ∗ owns (c : Thread nD τ) arg11 fullShare s1
            ∗ owns (c : Thread nD τ) arg12 fullShare s2
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare o6
            ∗ owns (c : Thread nD τ) arg9 fullShare o7
            ∗ owns (c : Thread nD τ) arg10 fullShare s0
            ∗ owns (c : Thread nD τ) arg11 fullShare (arg11.view.read (Elt F) (arg11.view.writes (Elt F) (harg11.unread s1) [⟨Rect.unit (s := S10000x128) (k0_off1 i) S200x128.size (k0_off1_inb i hc2), k0_pay3 x0 s0 x2 x3⟩]))
            ∗ owns (c : Thread nD τ) arg12 fullShare s2) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12
  sl_exec (disch := first | exact hc1 | exact hc2 | exact hc3 | exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    (try sl_unfold_words)
    repeat rw [readAt_whole]
    repeat rw [readCov_whole]
    try rw [read_writes_whole]
  iexists _; isplitr; · ipureintro; exact harg12.read_unread _
  iexact H12

end Cert.KernelIdeal.Body

end
-- ==== Proof.RunCIdeal.lean ====
/-
  At the second pass's first point: the hidden layer is cast into its second buffer, and the point's two result blocks are computed from that cast and stored whole.
  The body is run once, on any whole staging buffers and any contents, at any float instance; what it leaves in each
  buffer it stores into is the body's own arithmetic (the generated payload terms) of the contents it found.
-/
import proofs.«118011_g48653389529423_cont_8to1_c_917_10_alg».proof.Proof.Gen.KernelIdeal.Frame
import proofs.«118011_g48653389529423_cont_8to1_c_917_10_alg».proof.Proof.Gen.KernelIdeal.Skeleton
import proofs.«118011_g48653389529423_cont_8to1_c_917_10_alg».proof.Proof.SchedIdeal
import proofs.«118011_g48653389529423_cont_8to1_c_917_10_alg».proof.Proof.ReadBack
import Idealize.ShloMosaic.Lib.Pipeline.Value
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.ReadBack

set_option maxHeartbeats 2000000 in
/-- At the second pass's first point: the hidden layer is cast into its second buffer, and the point's two result blocks are computed from that cast and stored whole. -/
theorem runC (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S200x128 .f32) (harg8 : arg8.IsWhole) (arg9 : Memref sig .tc .vmem S200x128 .f32) (harg9 : arg9.IsWhole) (arg10 : Memref sig .tc .vmem S10000x128 .bf16) (harg10 : arg10.IsWhole) (arg11 : Memref sig .tc .vmem S10000x128 .f32) (harg11 : arg11.IsWhole) (arg12 : Memref sig .tc .vmem S10000x128 .bf16) (harg12 : arg12.IsWhole)
    (hc1 : ¬cond1 i) (hc2 : ¬cond2 i) (hc3 : cond3 i) (hc4 : cond4 i)
    (x0 : Vec F S200x10000 .f32) (x1 : Vec F S10000x128 .f32) (x2 : Vec F S128x128 .f32) (x3 : Vec F S1x128 .f32)
    (x4 : Vec F S128x128 .f32) (x5 : Vec F S1x128 .f32) (o6 o7 : Vec F S200x128 .f32)
    (s0 : Vec F S10000x128 .bf16) (s1 : Vec F S10000x128 .f32) (s2 : Vec F S10000x128 .bf16) (E : Set ℕ) (K : PUnit → sProp 𝕄) :
    iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare o6
            ∗ owns (c : Thread nD τ) arg9 fullShare o7
            ∗ owns (c : Thread nD τ) arg10 fullShare s0
            ∗ owns (c : Thread nD τ) arg11 fullShare s1
            ∗ owns (c : Thread nD τ) arg12 fullShare s2
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare (k0_pay6 x0 (k0_pay4 s1) x4 x5)
            ∗ owns (c : Thread nD τ) arg9 fullShare (k0_pay5 x0 (k0_pay4 s1))
            ∗ owns (c : Thread nD τ) arg10 fullShare s0
            ∗ owns (c : Thread nD τ) arg11 fullShare s1
            ∗ owns (c : Thread nD τ) arg12 fullShare (k0_pay4 s1)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12
  sl_exec (disch := first | exact hc1 | exact hc2 | exact hc3 | exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    (try sl_unfold_words)
    repeat rw [readAt_whole]
    repeat rw [readCov_whole]
    try rw [read_writes_whole]
  isplitl [H9]
  · iexists _; isplitr
    swap; · iexact H9
    ipureintro
    (try sl_unfold_words)
    repeat rw [readAt_whole]
    repeat rw [readCov_whole]
    try rw [read_writes_whole]
  isplitl [H10]
  · iexists _; isplitr; · ipureintro; exact harg10.read_unread _
    iexact H10
  isplitl [H11]
  · iexists _; isplitr; · ipureintro; exact harg11.read_unread _
    iexact H11
  iexists _; isplitr
  swap; · iexact H12
  ipureintro
  (try sl_unfold_words)
  repeat rw [readAt_whole]
  repeat rw [readCov_whole]
  try rw [read_writes_whole]

end Cert.KernelIdeal.Body

end
-- ==== Proof.RunDIdeal.lean ====
/-
  At a later point of the second pass: the two result blocks are computed from the hidden layer's cast found in its buffer and stored whole.
  The body is run once, on any whole staging buffers and any contents, at any float instance; what it leaves in each
  buffer it stores into is the body's own arithmetic (the generated payload terms) of the contents it found.
-/
import proofs.«118011_g48653389529423_cont_8to1_c_917_10_alg».proof.Proof.Gen.KernelIdeal.Frame
import proofs.«118011_g48653389529423_cont_8to1_c_917_10_alg».proof.Proof.Gen.KernelIdeal.Skeleton
import proofs.«118011_g48653389529423_cont_8to1_c_917_10_alg».proof.Proof.SchedIdeal
import proofs.«118011_g48653389529423_cont_8to1_c_917_10_alg».proof.Proof.ReadBack
import Idealize.ShloMosaic.Lib.Pipeline.Value
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.ReadBack

set_option maxHeartbeats 2000000 in
/-- At a later point of the second pass: the two result blocks are computed from the hidden layer's cast found in its buffer and stored whole. -/
theorem runD (c : Dev nD) (i : grid0.Coords) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S200x128 .f32) (harg8 : arg8.IsWhole) (arg9 : Memref sig .tc .vmem S200x128 .f32) (harg9 : arg9.IsWhole) (arg10 : Memref sig .tc .vmem S10000x128 .bf16) (harg10 : arg10.IsWhole) (arg11 : Memref sig .tc .vmem S10000x128 .f32) (harg11 : arg11.IsWhole) (arg12 : Memref sig .tc .vmem S10000x128 .bf16) (harg12 : arg12.IsWhole)
    (hc1 : ¬cond1 i) (hc2 : ¬cond2 i) (hc3 : ¬cond3 i) (hc4 : cond4 i)
    (x0 : Vec F S200x10000 .f32) (x1 : Vec F S10000x128 .f32) (x2 : Vec F S128x128 .f32) (x3 : Vec F S1x128 .f32)
    (x4 : Vec F S128x128 .f32) (x5 : Vec F S1x128 .f32) (o6 o7 : Vec F S200x128 .f32)
    (s0 : Vec F S10000x128 .bf16) (s1 : Vec F S10000x128 .f32) (s2 : Vec F S10000x128 .bf16) (E : Set ℕ) (K : PUnit → sProp 𝕄) :
    iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare o6
            ∗ owns (c : Thread nD τ) arg9 fullShare o7
            ∗ owns (c : Thread nD τ) arg10 fullShare s0
            ∗ owns (c : Thread nD τ) arg11 fullShare s1
            ∗ owns (c : Thread nD τ) arg12 fullShare s2
            ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare (k0_pay6 x0 s2 x4 x5)
            ∗ owns (c : Thread nD τ) arg9 fullShare (k0_pay5 x0 s2)
            ∗ owns (c : Thread nD τ) arg10 fullShare s0
            ∗ owns (c : Thread nD τ) arg11 fullShare s1
            ∗ owns (c : Thread nD τ) arg12 fullShare s2) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  obtain rfl := harg11.eq_unread hf11; obtain rfl := harg12.eq_unread hf12
  sl_exec (disch := first | exact hc1 | exact hc2 | exact hc3 | exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    (try sl_unfold_words)
    repeat rw [readAt_whole]
    repeat rw [readCov_whole]
    try rw [read_writes_whole]
  isplitl [H9]
  · iexists _; isplitr
    swap; · iexact H9
    ipureintro
    (try sl_unfold_words)
    repeat rw [readAt_whole]
    repeat rw [readCov_whole]
    try rw [read_writes_whole]
  isplitl [H10]
  · iexists _; isplitr; · ipureintro; exact harg10.read_unread _
    iexact H10
  isplitl [H11]
  · iexists _; isplitr; · ipureintro; exact harg11.read_unread _
    iexact H11
  iexists _; isplitr; · ipureintro; exact harg12.read_unread _
  iexact H12

end Cert.KernelIdeal.Body

end
-- ==== Proof.ObligIdeal.lean ====
/-
  The body obligation and the run. At every point the body finds each operand's buffer at its block and the three
  carried buffers at contents satisfying the invariant; which of its branches run is decided by the point. A first-pass
  point leaves the result windows' buffers as it found them (they are idle there and not written back) and moves the
  invariant by the rows it stored; a second-pass point leaves the two result blocks — computed from the hidden layer's
  cast, which by then is in place — and keeps the carried buffers. Before the first point the carried buffers hold
  anything; after the last they are forgotten again. Stated at any float instance.
-/
import proofs.«118011_g48653389529423_cont_8to1_c_917_10_alg».proof.Proof.Gen.KernelIdeal.Frame
import proofs.«118011_g48653389529423_cont_8to1_c_917_10_alg».proof.Proof.Gen.KernelIdeal.Skeleton
import proofs.«118011_g48653389529423_cont_8to1_c_917_10_alg».proof.Proof.InvIdeal
import proofs.«118011_g48653389529423_cont_8to1_c_917_10_alg».proof.Proof.RunAIdeal
import proofs.«118011_g48653389529423_cont_8to1_c_917_10_alg».proof.Proof.RunBIdeal
import proofs.«118011_g48653389529423_cont_8to1_c_917_10_alg».proof.Proof.RunCIdeal
import proofs.«118011_g48653389529423_cont_8to1_c_917_10_alg».proof.Proof.RunDIdeal
import Idealize.ShloMosaic.Lib.Pipeline.Value
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point `t`, and that it is a whole buffer. -/
abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S200x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S200x128 .f32 := win0_7.stage (cfg0.slots t 7)
abbrev hs0_7 (t : Fin cfg0.N) : (ms0_7 t).IsWhole := hstage0_7 ((cfg0.slots t 7).cast nbuf0_7)

/-- The invariant the launch hands the region: the three buffers of the kernel's own at some contents, the generator
    register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 8000000 in
/-- The body at any point, by the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (ms0_0 t) fullShare ((dats m 0 c).after 0 t) from by
    unfold Dat.leavesExact; rw [live0 t], after0_0]
  rw [show (dats m 0 c).leavesExact 1 t = owns (c : Thread nD τ) (ms0_1 t) fullShare ((dats m 0 c).after 1 t) from by
    unfold Dat.leavesExact; rw [live1 t], after0_1]
  rw [show (dats m 0 c).leavesExact 2 t = owns (c : Thread nD τ) (ms0_2 t) fullShare ((dats m 0 c).after 2 t) from by
    unfold Dat.leavesExact; rw [live2 t], after0_2]
  rw [show (dats m 0 c).leavesExact 3 t = owns (c : Thread nD τ) (ms0_3 t) fullShare ((dats m 0 c).after 3 t) from by
    unfold Dat.leavesExact; rw [live3 t], after0_3]
  rw [show (dats m 0 c).leavesExact 4 t = owns (c : Thread nD τ) (ms0_4 t) fullShare ((dats m 0 c).after 4 t) from by
    unfold Dat.leavesExact; rw [live4 t], after0_4]
  rw [show (dats m 0 c).leavesExact 5 t = owns (c : Thread nD τ) (ms0_5 t) fullShare ((dats m 0 c).after 5 t) from by
    unfold Dat.leavesExact; rw [live5 t], after0_5]
  have hN : t.val < 100 := lt_of_lt_of_eq t.isLt N_0
  unfold PhiS
  by_cases h2 : t.val < 50
  · rw [Dat.leavesExact_idle (dats m 0 c) 6 t (idle6 t h2) (noFlush6 t h2), Dat.leavesExact_idle (dats m 0 c) 7 t (idle7 t h2) (noFlush7 t h2)]
    have hc2 : cond2 (grid0.coords t) := (hcond2 t).mpr h2
    have hc3 : ¬cond3 (grid0.coords t) := fun h => by have := (hcond3 t).mp h; omega
    have hc4 : ¬cond4 (grid0.coords t) := fun h => by have := (hcond4 t).mp h; omega
    iintro ⟨⟨%f0, %f1, %f2, HS0, HS1, HS2, %hinv, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    by_cases h1 : t.val = 0
    · have hc1 : cond1 (grid0.coords t) := (hcond1 t).mpr h1
      iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc1 hc2 hc3 hc4
        (adjBlk m c t) (xBlk m c t) (w1Blk m c t) (b1Blk m c t) (w2Blk m c t) (b2Blk m c t) ((dats m 0 c).before 6 t d6) ((dats m 0 c).before 7 t d7) f0 f1 f2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · iexists _; iexists _; iexists _
        isplitl [HS0]; · iexact HS0
        isplitl [HS1]; · iexact HS1
        isplitl [HS2]; · iexact HS2
        isplitr
        · ipureintro
          exact inv_pass1 m c t h2 scM1.view _ (k0_off1_inb (grid0.coords t) hc2) f0 (k0_pay2 (xBlk m c t)) f1 f2 (Memref.IsWhole.read_unread _ f1) (by obtain rfl : t = t0 := Fin.ext h1; rfl) hinv
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · have hc1 : ¬cond1 (grid0.coords t) := fun h => h1 ((hcond1 t).mp h)
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc1 hc2 hc3 hc4
        (adjBlk m c t) (xBlk m c t) (w1Blk m c t) (b1Blk m c t) (w2Blk m c t) (b2Blk m c t) ((dats m 0 c).before 6 t d6) ((dats m 0 c).before 7 t d7) f0 f1 f2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · iexists _; iexists _; iexists _
        isplitl [HS0]; · iexact HS0
        isplitl [HS1]; · iexact HS1
        isplitl [HS2]; · iexact HS2
        isplitr
        · ipureintro
          exact inv_pass1 m c t h2 scM1.view _ (k0_off1_inb (grid0.coords t) hc2) f0 f0 f1 f2 (Memref.IsWhole.read_unread _ f1) (hinv.1 (by omega)) hinv
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have h2' : 50 ≤ t.val := by omega
    rw [show (dats m 0 c).leavesExact 6 t = owns (c : Thread nD τ) (ms0_6 t) fullShare ((dats m 0 c).after 6 t) from by
      unfold Dat.leavesExact; rw [live6 t h2'], after0_6]
    rw [show (dats m 0 c).leavesExact 7 t = owns (c : Thread nD τ) (ms0_7 t) fullShare ((dats m 0 c).after 7 t) from by
      unfold Dat.leavesExact; rw [live7 t h2'], after0_7]
    unfold embBlk outBlk
    have hc1 : ¬cond1 (grid0.coords t) := fun h => by have := (hcond1 t).mp h; omega
    have hc2 : ¬cond2 (grid0.coords t) := fun h => h2 ((hcond2 t).mp h)
    have hc4 : cond4 (grid0.coords t) := (hcond4 t).mpr h2'
    iintro ⟨⟨%f0, %f1, %f2, HS0, HS1, HS2, %hinv, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    by_cases h3 : t.val = 50
    · have hc3 : cond3 (grid0.coords t) := (hcond3 t).mpr h3
      obtain rfl := inv_full m c t.val h2' f0 f1 f2 hinv
      unfold castH
      iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc1 hc2 hc3 hc4
        (adjBlk m c t) (xBlk m c t) (w1Blk m c t) (b1Blk m c t) (w2Blk m c t) (b2Blk m c t) ((dats m 0 c).before 6 t d6) ((dats m 0 c).before 7 t d7) f0 (hidArr m c) f2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · iexists _; iexists _; iexists _
        isplitl [HS0]; · iexact HS0
        isplitl [HS1]; · iexact HS1
        isplitl [HS2]; · iexact HS2
        isplitr
        · ipureintro
          exact inv_pass2 m c t h2' f0 _ _ _ rfl hinv
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc3 : ¬cond3 (grid0.coords t) := fun h => h3 ((hcond3 t).mp h)
      obtain rfl := hinv.2.2 (by omega)
      iapply (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0 (Memref.isWhole_whole _) scM1 (Memref.isWhole_whole _) scM2 (Memref.isWhole_whole _) hc1 hc2 hc3 hc4
        (adjBlk m c t) (xBlk m c t) (w1Blk m c t) (b1Blk m c t) (w2Blk m c t) (b2Blk m c t) ((dats m 0 c).before 6 t d6) ((dats m 0 c).before 7 t d7) f0 f1 (castH m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, HS0, HS1, HS2⟩
      isplitl [HS0 HS1 HS2 Hg]
      · iexists _; iexists _; iexists _
        isplitl [HS0]; · iexact HS0
        isplitl [HS1]; · iexact HS1
        isplitl [HS2]; · iexact HS2
        isplitr
        · ipureintro
          exact inv_pass2 m c t h2' f0 _ _ _ rfl hinv
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiA0_eq]; unfold PhiS
  iintro ⟨⟨⟨%d0, HS0⟩, ⟨%d1, HS1⟩, ⟨%d2, HS2⟩⟩, Hg⟩
  iexists d0; iexists d1; iexists d2
  isplitl [HS0]; · iexact HS0
  isplitl [HS1]; · iexact HS1
  isplitl [HS2]; · iexact HS2
  isplitr
  · ipureintro; exact inv_zero m c d0 d1 d2
  iexact Hg

/-- After the last point the carried buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]; unfold PhiS
  iintro ⟨%f0, %f1, %f2, HS0, HS1, HS2, %hinv, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every weakly fair execution of @main terminates, every array of the pipeline ending at what the proof data compute
    and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: @main runs to the end, faults nowhere and leaves its six arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The same run read at the two result arrays as well: each ends at what the proof data compute for its window. -/
theorem run_results : θ_run defs (onTc (τ := τ) (main (F := F))) ⟨m, fun _ => 0, ρ⟩ (fun r => ∀ c : Dev nD,
      r.2.mem ((c.tc : Thread nD τ).loc main_v2_0) = (dats m 0 c).arrAt 6 cfg0.N
      ∧ r.2.mem ((c.tc : Thread nD τ).loc main_v2_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 6, (h c).1 7,
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end Cert.KernelIdeal.Body

end
-- ==== Proof.GcnSpec.lean ====
/-
  The two-layer graph convolution both programs compute, stated once, index by index, over the extended reals:
  with A the dense N×N adjacency, X the N×128 features, W1, W2 the 128×128 weights (each applied transposed, so a
  row of W pairs with a row of the left factor) and b1, b2 the biases,
      P = A·X,   H = max (P·W1ᵀ + b1) 0,   E = A·H,   Y = E·W2ᵀ + b2 .
  Every sum is a plain finite sum over the contracted axis; nothing here depends on how a program tiles the rows of A
  or in which order it adds. N = 10000.
-/
import Idealize.ShloMosaic.PureOps.Ideal
import Idealize.ShloMosaic.Lib.ValueIdx

noncomputable section

namespace Cert.Gcn

open Idealize.ShloMosaic Idealize.ShloMosaic.ValueIdx

abbrev SNN : Shape := ⟨2, ![10000, 10000]⟩
abbrev SND : Shape := ⟨2, ![10000, 128]⟩
abbrev SDD : Shape := ⟨2, ![128, 128]⟩
abbrev SD : Shape := ⟨1, ![128]⟩

/-- P = A·X at row r, column j. -/
def agg (A : FVec Ideal SNN .f32) (X : FVec Ideal SND .f32) (r : Fin 10000) (j : Fin 128) : EReal :=
  ∑ k : Fin 10000, A (ix2 r k) * X (ix2 k j)

/-- H = max (P·W1ᵀ + b1) 0 at row r, column o: row o of W1 against row r of P. -/
def hid (A : FVec Ideal SNN .f32) (X : FVec Ideal SND .f32) (W1 : FVec Ideal SDD .f32) (b1 : FVec Ideal SD .f32)
    (r : Fin 10000) (o : Fin 128) : EReal :=
  max ((∑ j : Fin 128, agg A X r j * W1 (ix2 o j)) + b1 (ix1 o)) 0

/-- E = A·H at row r, column o. -/
def emb (A : FVec Ideal SNN .f32) (X : FVec Ideal SND .f32) (W1 : FVec Ideal SDD .f32) (b1 : FVec Ideal SD .f32)
    (r : Fin 10000) (o : Fin 128) : EReal :=
  ∑ k : Fin 10000, A (ix2 r k) * hid A X W1 b1 k o

/-- Y = E·W2ᵀ + b2 at row r, column o. -/
def out (A : FVec Ideal SNN .f32) (X : FVec Ideal SND .f32) (W1 : FVec Ideal SDD .f32) (b1 : FVec Ideal SD .f32)
    (W2 : FVec Ideal SDD .f32) (b2 : FVec Ideal SD .f32) (r : Fin 10000) (o : Fin 128) : EReal :=
  (∑ j : Fin 128, emb A X W1 b1 r j * W2 (ix2 o j)) + b2 (ix1 o)

/-- The embedding as a whole array. -/
def embArr (A : FVec Ideal SNN .f32) (X : FVec Ideal SND .f32) (W1 : FVec Ideal SDD .f32) (b1 : FVec Ideal SD .f32) :
    FVec Ideal SND .f32 := fun i => emb A X W1 b1 (i 0) (i 1)

/-- The output as a whole array. -/
def outArr (A : FVec Ideal SNN .f32) (X : FVec Ideal SND .f32) (W1 : FVec Ideal SDD .f32) (b1 : FVec Ideal SD .f32)
    (W2 : FVec Ideal SDD .f32) (b2 : FVec Ideal SD .f32) : FVec Ideal SND .f32 := fun i => out A X W1 b1 W2 b2 (i 0) (i 1)

end Cert.Gcn

end
-- ==== Proof.PayValue.lean ====
/-
  The kernel body's arithmetic read at an index, over the extended reals.

  Each payload is a composition of pointwise operations, same-shape casts, one row broadcast and two matrix products
  into the zero accumulator. At the ideal values a change of format is the identity, a cast to the same shape is the
  identity, and a matrix product into zero is the plain finite sum over the contracted axis. The first product
  contracts the left factor's columns with the right factor's rows; the second contracts the columns of BOTH factors,
  so the weight is applied transposed and is read at (o, j). The bias row [1,128] broadcast over 200 rows is read at
  (0, o). The rectifier is the maximum with zero.
-/
import proofs.«118011_g48653389529423_cont_8to1_c_917_10_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.PayValue

open Cert.KernelIdeal Cert.KernelIdeal.Gen Idealize.ShloMosaic Idealize.ShloMosaic.ValueIdx

/-! ## The first product: rows of the left factor against columns of the right -/

theorem lhs_adj_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhs_adj_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem rhs_adj_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem rhs_adj_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- The product of a [200,10000] factor with a [10000,128] factor into zero, at (r, o): the sum over the shared axis. -/
theorem matmul_adj_apply {φ₁ φ₂ : FTy} (a : FVec Ideal S200x10000 φ₁) (h : FVec Ideal S10000x128 φ₂) (r : Fin 200) (o : Fin 128) :
    matmul (F := Ideal) dot_S200x10000_S10000x128_S200x128_1_0_0_1_n_n none a h (constant (F := Ideal) S200x128 .f32 0x00000000#32) (ix2 r o)
      = ∑ k : Fin 10000, a (ix2 r k) * h (ix2 k o) := by
  refine (Ideal.matmul_constant_zero_apply dot_S200x10000_S10000x128_S200x128_1_0_0_1_n_n none a h (ix2 r o)).trans ?_
  rw [← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 r o) ((contrEquiv1 dot_S200x10000_S10000x128_S200x128_1_0_0_1_n_n 10000 rfl rfl).symm k) = ix2 r k := funext fun ax => Fin.ext (by
    match ax with
    | ⟨0, _⟩ => exact lhs_adj_0 _ _
    | ⟨1, _⟩ => exact (lhs_adj_1 _ _).trans hk)
  have er : dot_S200x10000_S10000x128_S200x128_1_0_0_1_n_n.rhsIdx (ix2 r o) ((contrEquiv1 dot_S200x10000_S10000x128_S200x128_1_0_0_1_n_n 10000 rfl rfl).symm k) = ix2 k o := funext fun ax => Fin.ext (by
    match ax with
    | ⟨0, _⟩ => exact (rhs_adj_0 _ _).trans hk
    | ⟨1, _⟩ => exact rhs_adj_1 _ _)
  rw [el, er]

/-! ## The second product: rows of the left factor against ROWS of the weight -/

theorem lhs_w_0 (i : S200x128.Idx) (q : dot_S200x128_S128x128_S200x128_1_1_0_0_n_n.contr.Idx) :
    (dot_S200x128_S128x128_S200x128_1_1_0_0_n_n.lhsIdx i q 0).val = (i 0).val := by
  unfold DotDims.lhsIdx
  rw [dif_neg (show ¬(0 : Fin S200x128.rank) ∈ dot_S200x128_S128x128_S200x128_1_1_0_0_n_n.lhsBatch by decide), dif_pos (show (0 : Fin S200x128.rank) ∈ dot_S200x128_S128x128_S200x128_1_1_0_0_n_n.lhsNonContracting by decide)]
  rfl
theorem lhs_w_1 (i : S200x128.Idx) (q : dot_S200x128_S128x128_S200x128_1_1_0_0_n_n.contr.Idx) :
    (dot_S200x128_S128x128_S200x128_1_1_0_0_n_n.lhsIdx i q 1).val = (q ⟨0, by decide⟩).val :=
  dot_S200x128_S128x128_S200x128_1_1_0_0_n_n.lhsIdx_val_of_single rfl i q
theorem rhs_w_0 (i : S200x128.Idx) (q : dot_S200x128_S128x128_S200x128_1_1_0_0_n_n.contr.Idx) :
    (dot_S200x128_S128x128_S200x128_1_1_0_0_n_n.rhsIdx i q 0).val = (i 1).val := by
  unfold DotDims.rhsIdx
  rw [dif_neg (show ¬(0 : Fin S128x128.rank) ∈ dot_S200x128_S128x128_S200x128_1_1_0_0_n_n.rhsBatch by decide), dif_pos (show (0 : Fin S128x128.rank) ∈ dot_S200x128_S128x128_S200x128_1_1_0_0_n_n.rhsNonContracting by decide)]
  rfl
theorem rhs_w_1 (i : S200x128.Idx) (q : dot_S200x128_S128x128_S200x128_1_1_0_0_n_n.contr.Idx) :
    (dot_S200x128_S128x128_S200x128_1_1_0_0_n_n.rhsIdx i q 1).val = (q ⟨0, by decide⟩).val :=
  dot_S200x128_S128x128_S200x128_1_1_0_0_n_n.rhsIdx_val_of_single rfl i q

/-- The product of a [200,128] factor with a [128,128] weight, contracting the columns of both, into zero, at (r, o):
    row r of the left factor against row o of the weight. -/
theorem matmul_w_apply {φ₁ φ₂ : FTy} (p : FVec Ideal S200x128 φ₁) (w : FVec Ideal S128x128 φ₂) (r : Fin 200) (o : Fin 128) :
    matmul (F := Ideal) dot_S200x128_S128x128_S200x128_1_1_0_0_n_n none p w (constant (F := Ideal) S200x128 .f32 0x00000000#32) (ix2 r o)
      = ∑ j : Fin 128, p (ix2 r j) * w (ix2 o j) := by
  refine (Ideal.matmul_constant_zero_apply dot_S200x128_S128x128_S200x128_1_1_0_0_n_n none p w (ix2 r o)).trans ?_
  rw [← Equiv.sum_comp (contrEquiv1 dot_S200x128_S128x128_S200x128_1_1_0_0_n_n 128 rfl rfl).symm]
  refine Finset.sum_congr rfl fun j _ => ?_
  have hj := contrEquiv1_symm_val dot_S200x128_S128x128_S200x128_1_1_0_0_n_n 128 rfl rfl j
  have el : dot_S200x128_S128x128_S200x128_1_1_0_0_n_n.lhsIdx (ix2 r o) ((contrEquiv1 dot_S200x128_S128x128_S200x128_1_1_0_0_n_n 128 rfl rfl).symm j) = ix2 r j := funext fun ax => Fin.ext (by
    match ax with
    | ⟨0, _⟩ => exact lhs_w_0 _ _
    | ⟨1, _⟩ => exact (lhs_w_1 _ _).trans hj)
  have er : dot_S200x128_S128x128_S200x128_1_1_0_0_n_n.rhsIdx (ix2 r o) ((contrEquiv1 dot_S200x128_S128x128_S200x128_1_1_0_0_n_n 128 rfl rfl).symm j) = ix2 o j := funext fun ax => Fin.ext (by
    match ax with
    | ⟨0, _⟩ => exact rhs_w_0 _ _
    | ⟨1, _⟩ => exact (rhs_w_1 _ _).trans hj)
  rw [el, er]

/-! ## The pointwise and layout steps -/

/-- A change of format is the identity on extended reals. -/
theorem pay1_apply (x : Vec Ideal S200x10000 .f32) (i : S200x10000.Idx) : k0_pay1 (F := Ideal) x i = x i := rfl

/-- The bias row, cast to its own shape and broadcast over the 200 rows, read at (r, o), is the row at (0, o). -/
theorem bias_apply {α : Type} (b : S1x128.Idx → α) (r : Fin 200) (o : Fin 128) :
    broadcastTo S200x128 (shapeCast S1x128 b shapeCasts_S1x128_S1x128) broadcasts_S1x128_S200x128 (ix2 r o) = b (ix2 0 o) := by
  rw [shapeCast_self]
  exact broadcastTo_1b_ab_apply b broadcasts_S1x128_S200x128 r o

/-- The rectifier: the maximum with the zero word's value, which is 0; the cast to the same shape is the identity. -/
theorem relu_apply (m : FVec Ideal S200x128 .f32) (i : S200x128.Idx) :
    shapeCast S200x128 (maximumf m (broadcast S200x128 (Scalar.ofBits (F := Ideal) .f32 0x00000000#32))) shapeCasts_S200x128_S200x128 i
      = max (m i) 0 := by
  rw [shapeCast_self]
  show max (m i) (Ideal.ofBits .f32 0x00000000#32) = _
  rw [Ideal.ofBits_zero_f32]

/-! ## The payloads -/

/-- The features, narrowed and cast to their own shape: unchanged. -/
theorem pay2_apply (x : Vec Ideal S10000x128 .f32) (i : S10000x128.Idx) : k0_pay2 (F := Ideal) x i = x i := by
  unfold k0_pay2
  refine (congrFun (shapeCast_self _ shapeCasts_S10000x128_S10000x128) i).trans ?_
  rfl

/-- The hidden layer, narrowed and cast to its own shape: unchanged. -/
theorem pay4_apply (x : Vec Ideal S10000x128 .f32) (i : S10000x128.Idx) : k0_pay4 (F := Ideal) x i = x i := by
  unfold k0_pay4
  refine (congrFun (shapeCast_self _ shapeCasts_S10000x128_S10000x128) i).trans ?_
  rfl

/-- The aggregation of a block of 200 rows: at (r, o), row r of the block against column o of the right factor. -/
theorem pay5_apply (a : Vec Ideal S200x10000 .f32) (h : Vec Ideal S10000x128 .bf16) (r : Fin 200) (o : Fin 128) :
    k0_pay5 (F := Ideal) a h (ix2 r o) = ∑ k : Fin 10000, a (ix2 r k) * h (ix2 k o) := by
  unfold k0_pay5
  exact matmul_adj_apply (φ₁ := .bf16) (φ₂ := .bf16) (k0_pay1 (F := Ideal) a) h r o

/-- The first layer on a block of rows: aggregate, apply the weight transposed, add the bias, rectify. -/
theorem pay3_apply (a : Vec Ideal S200x10000 .f32) (xb : Vec Ideal S10000x128 .bf16) (w : Vec Ideal S128x128 .f32) (b : Vec Ideal S1x128 .f32) (r : Fin 200) (o : Fin 128) :
    k0_pay3 (F := Ideal) a xb w b (ix2 r o) = max ((∑ j : Fin 128, (∑ k : Fin 10000, a (ix2 r k) * xb (ix2 k j)) * w (ix2 o j)) + b (ix2 0 o)) 0 := by
  unfold k0_pay3
  refine (relu_apply _ (ix2 r o)).trans ?_
  refine congrArg (fun t => max t 0) ?_
  refine (addf_apply _ _ (ix2 r o)).trans ?_
  refine congrArg₂ (· + ·) ?_ (bias_apply b r o)
  refine (matmul_w_apply (φ₁ := .bf16) (φ₂ := .bf16) _ _ r o).trans ?_
  refine Finset.sum_congr rfl fun j _ => ?_
  refine congrArg (· * w (ix2 o j)) ?_
  exact matmul_adj_apply (φ₁ := .bf16) (φ₂ := .bf16) (k0_pay1 (F := Ideal) a) xb r j

/-- The second layer on a block of rows: aggregate the hidden layer, apply the weight transposed, add the bias. -/
theorem pay6_apply (a : Vec Ideal S200x10000 .f32) (h : Vec Ideal S10000x128 .bf16) (w : Vec Ideal S128x128 .f32) (b : Vec Ideal S1x128 .f32) (r : Fin 200) (o : Fin 128) :
    k0_pay6 (F := Ideal) a h w b (ix2 r o) = (∑ j : Fin 128, (∑ k : Fin 10000, a (ix2 r k) * h (ix2 k j)) * w (ix2 o j)) + b (ix2 0 o) := by
  unfold k0_pay6
  refine (addf_apply _ _ (ix2 r o)).trans ?_
  refine congrArg₂ (· + ·) ?_ (bias_apply b r o)
  refine (matmul_w_apply (φ₁ := .bf16) (φ₂ := .bf16) _ _ r o).trans ?_
  refine Finset.sum_congr rfl fun j _ => ?_
  refine congrArg (· * w (ix2 o j)) ?_
  exact pay5_apply a h r j

end Cert.KernelIdeal.PayValue

end
-- ==== Proof.BlockValue.lean ====
/-
  The windows' blocks and the carried contents, read at an index as the specification's functions of the argument
  arrays. A window's block at a grid point is read off its array at block index × block size + the coordinate inside
  the block. The adjacency window's block at point t is rows [200·(t mod 50), 200·(t mod 50) + 200); the other five
  operand windows are whole arrays at block index (0, 0); the two bias windows stage the host's reshape of a
  length-128 vector to one row of 128.
-/
import proofs.«118011_g48653389529423_cont_8to1_c_917_10_alg».proof.Proof.DataIdeal
import proofs.«118011_g48653389529423_cont_8to1_c_917_10_alg».proof.Proof.PayValue
import proofs.«118011_g48653389529423_cont_8to1_c_917_10_alg».proof.Proof.GcnSpec
import Idealize.ShloMosaic.Lib.ValueIdx
import Idealize.ShloMosaic.Lib.ValueLayout
import Idealize.ShloMosaic.Lib.StableHlo.Run
import Idealize.ShloMosaic.PureOps.Ideal

set_option maxRecDepth 16384

noncomputable section

namespace Cert.KernelIdeal.BlockValue

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The argument arrays, as launched -/

/-- The adjacency. -/
abbrev argA (c : Dev nD) : FVec Ideal Cert.Gcn.SNN .f32 := m ((c : Thread nD τ).loc main_arg1)
/-- The features. -/
abbrev argX (c : Dev nD) : FVec Ideal Cert.Gcn.SND .f32 := m ((c : Thread nD τ).loc main_arg0)
/-- The first layer's weight and bias. -/
abbrev argW1 (c : Dev nD) : FVec Ideal Cert.Gcn.SDD .f32 := m ((c : Thread nD τ).loc main_arg2)
abbrev argB1 (c : Dev nD) : FVec Ideal Cert.Gcn.SD .f32 := m ((c : Thread nD τ).loc main_arg3)
/-- The second layer's weight and bias. -/
abbrev argW2 (c : Dev nD) : FVec Ideal Cert.Gcn.SDD .f32 := m ((c : Thread nD τ).loc main_arg4)
abbrev argB2 (c : Dev nD) : FVec Ideal Cert.Gcn.SD .f32 := m ((c : Thread nD τ).loc main_arg5)

/-! ## The block indices of the five whole-array windows -/

theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])

/-! ## The operand windows' blocks -/

/-- Row r of the adjacency block staged at point t is row 200·(t mod 50) + r of the adjacency. -/
abbrev blkRow (t : Fin cfg0.N) (r : Fin 200) : Fin 10000 :=
  ⟨200 * (t.val % 50) + r.val, by have := r.isLt; have := Nat.mod_lt t.val (show 0 < 50 by decide); omega⟩

theorem adjBlk_apply (c : Dev nD) (t : Fin cfg0.N) (r : Fin 200) (k : Fin 10000) :
    Body.adjBlk m c t (ix2 r k) = argA m c (ix2 (blkRow t r) k) := by
  show V m c main_arg1 (((cfg0.win 0).blk t).view.emb (ix2 r k)) = _
  rw [V_main_arg1]
  refine congrArg (m ((c : Thread nD τ).loc main_arg1)) (funext fun a => Fin.ext ?_)
  have h0 : win0_0.index t (0 : Fin 2) = t.val % 50 := congrFun (Body.index0 t) 0
  have h1 : win0_0.index t (1 : Fin 2) = 0 := congrFun (Body.index0 t) 1
  match a with
  | ⟨0, _⟩ => show win0_0.index t (0 : Fin 2) * 200 + 1 * r.val = 200 * (t.val % 50) + r.val; omega
  | ⟨1, _⟩ => show win0_0.index t (1 : Fin 2) * 10000 + 1 * k.val = k.val; omega

/-- The features' window is the whole array. -/
theorem xBlk_apply (c : Dev nD) (t : Fin cfg0.N) (y : S10000x128.Idx) : Body.xBlk m c t y = argX m c y := by
  show V m c main_arg0 (((cfg0.win 1).blk t).view.emb y) = _
  rw [V_main_arg0]
  refine congrArg (m ((c : Thread nD τ).loc main_arg0)) (funext fun a => Fin.ext ?_)
  have h0 : win0_1.index t (0 : Fin 2) = 0 := congrFun (index1 t) 0
  have h1 : win0_1.index t (1 : Fin 2) = 0 := congrFun (index1 t) 1
  match a with
  | ⟨0, _⟩ => show win0_1.index t (0 : Fin 2) * 10000 + 1 * (y 0).val = (y 0).val; omega
  | ⟨1, _⟩ => show win0_1.index t (1 : Fin 2) * 128 + 1 * (y 1).val = (y 1).val; omega

/-- The first weight's window is the whole array. -/
theorem w1Blk_apply (c : Dev nD) (t : Fin cfg0.N) (y : S128x128.Idx) : Body.w1Blk m c t y = argW1 m c y := by
  show V m c main_arg2 (((cfg0.win 2).blk t).view.emb y) = _
  rw [V_main_arg2]
  refine congrArg (m ((c : Thread nD τ).loc main_arg2)) (funext fun a => Fin.ext ?_)
  have h0 : win0_2.index t (0 : Fin 2) = 0 := congrFun (index2 t) 0
  have h1 : win0_2.index t (1 : Fin 2) = 0 := congrFun (index2 t) 1
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second weight's window is the whole array. -/
theorem w2Blk_apply (c : Dev nD) (t : Fin cfg0.N) (y : S128x128.Idx) : Body.w2Blk m c t y = argW2 m c y := by
  show V m c main_arg4 (((cfg0.win 4).blk t).view.emb y) = _
  rw [V_main_arg4]
  refine congrArg (m ((c : Thread nD τ).loc main_arg4)) (funext fun a => Fin.ext ?_)
  have h0 : win0_4.index t (0 : Fin 2) = 0 := congrFun (index4 t) 0
  have h1 : win0_4.index t (1 : Fin 2) = 0 := congrFun (index4 t) 1
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The first bias as the region finds it: the host's reshape of the length-128 vector to one row. -/
theorem V_main_v0 (c : Dev nD) :
    (V m c main_v0 : S1x128.Idx → EReal) = shapeCast S1x128 (argB1 m c) shapeCasts_S128_S1x128 := by
  dsimp only [Gen.V, Gen.hostOps0]; after_results; rfl

/-- The second bias as the region finds it. -/
theorem V_main_v1 (c : Dev nD) :
    (V m c main_v1 : S1x128.Idx → EReal) = shapeCast S1x128 (argB2 m c) shapeCasts_S128_S1x128 := by
  dsimp only [Gen.V, Gen.hostOps0]; after_results; rfl

/-- The first bias's window is the whole one-row array: at (0, o) it is the bias at o. -/
theorem b1Blk_apply (c : Dev nD) (t : Fin cfg0.N) (o : Fin 128) : Body.b1Blk m c t (ix2 0 o) = argB1 m c (ix1 o) := by
  show (V m c main_v0 : S1x128.Idx → EReal) (((cfg0.win 3).blk t).view.emb (ix2 0 o)) = _
  rw [V_main_v0]
  have e : ((cfg0.win 3).blk t).view.emb (ix2 (0 : Fin 1) o) = ix2 (0 : Fin 1) o := by
    funext a; apply Fin.ext
    have h0 : win0_3.index t (0 : Fin 2) = 0 := congrFun (index3 t) 0
    have h1 : win0_3.index t (1 : Fin 2) = 0 := congrFun (index3 t) 1
    match a with
    | ⟨0, _⟩ => show win0_3.index t (0 : Fin 2) * 1 + 1 * 0 = 0; omega
    | ⟨1, _⟩ => show win0_3.index t (1 : Fin 2) * 128 + 1 * o.val = o.val; omega
  refine (congrArg (shapeCast S1x128 (argB1 m c) shapeCasts_S128_S1x128) e).trans ?_
  exact shapeCast_a_1a_apply (argB1 m c) shapeCasts_S128_S1x128 0 o

/-- The second bias's window likewise. -/
theorem b2Blk_apply (c : Dev nD) (t : Fin cfg0.N) (o : Fin 128) : Body.b2Blk m c t (ix2 0 o) = argB2 m c (ix1 o) := by
  show (V m c main_v1 : S1x128.Idx → EReal) (((cfg0.win 5).blk t).view.emb (ix2 0 o)) = _
  rw [V_main_v1]
  have e : ((cfg0.win 5).blk t).view.emb (ix2 (0 : Fin 1) o) = ix2 (0 : Fin 1) o := by
    funext a; apply Fin.ext
    have h0 : win0_5.index t (0 : Fin 2) = 0 := congrFun (index5 t) 0
    have h1 : win0_5.index t (1 : Fin 2) = 0 := congrFun (index5 t) 1
    match a with
    | ⟨0, _⟩ => show win0_5.index t (0 : Fin 2) * 1 + 1 * 0 = 0; omega
    | ⟨1, _⟩ => show win0_5.index t (1 : Fin 2) * 128 + 1 * o.val = o.val; omega
  refine (congrArg (shapeCast S1x128 (argB2 m c) shapeCasts_S128_S1x128) e).trans ?_
  exact shapeCast_a_1a_apply (argB2 m c) shapeCasts_S128_S1x128 0 o

/-! ## The carried contents and the results -/

/-- The features' cast is the features. -/
theorem castX_apply (c : Dev nD) (y : S10000x128.Idx) : Body.castX m c y = argX m c y := by
  unfold Body.castX
  exact (PayValue.pay2_apply (Body.xBlk m c Body.t0) y).trans (xBlk_apply m c Body.t0 y)

/-- The 200 rows the first pass computes at point t are rows 200·(t mod 50) … of the hidden layer. -/
theorem hidRows_apply (c : Dev nD) (t : Fin cfg0.N) (r : Fin 200) (o : Fin 128) :
    Body.hidRows m c t (ix2 r o) = Cert.Gcn.hid (argA m c) (argX m c) (argW1 m c) (argB1 m c) (blkRow t r) o := by
  unfold Body.hidRows
  refine (PayValue.pay3_apply (Body.adjBlk m c t) (Body.castX m c) (Body.w1Blk m c t) (Body.b1Blk m c t) r o).trans ?_
  unfold Cert.Gcn.hid
  refine congrArg (fun s => max s 0) ?_
  refine congrArg₂ (· + ·) ?_ (b1Blk_apply m c t o)
  refine Finset.sum_congr rfl fun j _ => ?_
  refine congrArg₂ (· * ·) ?_ (w1Blk_apply m c t (ix2 o j))
  unfold Cert.Gcn.agg
  refine Finset.sum_congr rfl fun k _ => ?_
  exact congrArg₂ (· * ·) (adjBlk_apply m c t r k) (castX_apply m c (ix2 k j))

/-- The hidden layer, row by row: row a lies in block a / 200 at row a mod 200 of it. -/
theorem hidArr_apply (c : Dev nD) (y : S10000x128.Idx) :
    Body.hidArr m c y = Cert.Gcn.hid (argA m c) (argX m c) (argW1 m c) (argB1 m c) (y 0) (y 1) := by
  unfold Body.hidArr
  refine (hidRows_apply m c _ _ (y 1)).trans ?_
  refine congrArg (fun a => Cert.Gcn.hid (argA m c) (argX m c) (argW1 m c) (argB1 m c) a (y 1)) (Fin.ext ?_)
  show 200 * (((y 0).val / 200) % 50) + (y 0).val % 200 = (y 0).val
  have hy : (y 0).val < 10000 := idx2_lt0 y
  omega

/-- The hidden layer's cast is the hidden layer. -/
theorem castH_apply (c : Dev nD) (k : Fin 10000) (o : Fin 128) :
    Body.castH m c (ix2 k o) = Cert.Gcn.hid (argA m c) (argX m c) (argW1 m c) (argB1 m c) k o := by
  unfold Body.castH
  exact (PayValue.pay4_apply (Body.hidArr m c) (ix2 k o)).trans (hidArr_apply m c (ix2 k o))

/-- The embedding block the second pass stores at point t is rows 200·(t mod 50) … of the embedding. -/
theorem embBlk_apply (c : Dev nD) (t : Fin cfg0.N) (r : Fin 200) (o : Fin 128) :
    Body.embBlk m c t (ix2 r o) = Cert.Gcn.emb (argA m c) (argX m c) (argW1 m c) (argB1 m c) (blkRow t r) o := by
  unfold Body.embBlk
  refine (PayValue.pay5_apply (Body.adjBlk m c t) (Body.castH m c) r o).trans ?_
  unfold Cert.Gcn.emb
  refine Finset.sum_congr rfl fun k _ => ?_
  exact congrArg₂ (· * ·) (adjBlk_apply m c t r k) (castH_apply m c k o)

/-- The output block the second pass stores at point t is rows 200·(t mod 50) … of the output. -/
theorem outBlk_apply (c : Dev nD) (t : Fin cfg0.N) (r : Fin 200) (o : Fin 128) :
    Body.outBlk m c t (ix2 r o)
      = Cert.Gcn.out (argA m c) (argX m c) (argW1 m c) (argB1 m c) (argW2 m c) (argB2 m c) (blkRow t r) o := by
  unfold Body.outBlk
  refine (PayValue.pay6_apply (Body.adjBlk m c t) (Body.castH m c) (Body.w2Blk m c t) (Body.b2Blk m c t) r o).trans ?_
  unfold Cert.Gcn.out
  refine congrArg₂ (· + ·) ?_ (b2Blk_apply m c t o)
  refine Finset.sum_congr rfl fun j _ => ?_
  refine congrArg₂ (· * ·) ?_ (w2Blk_apply m c t (ix2 o j))
  unfold Cert.Gcn.emb
  refine Finset.sum_congr rfl fun k _ => ?_
  exact congrArg₂ (· * ·) (adjBlk_apply m c t r k) (castH_apply m c k j)

end Cert.KernelIdeal.BlockValue

end
-- ==== Proof.ArrValue.lean ====
/-
  From blocks to arrays. The two result arrays are written back only in the second pass, point t = 50 + i writing rows
  [200·i, 200·i + 200): row r of what it writes is row 200·(t − 50) + r = 200·(t mod 50) + r of the array, and there the
  block holds the specification's value at that row. Every row a of the array lies in the block of point 50 + a / 200, so
  after the last point the embedding's array is E and the output's array is Y, whole.
-/
import proofs.«118011_g48653389529423_cont_8to1_c_917_10_alg».proof.Proof.DataIdeal
import proofs.«118011_g48653389529423_cont_8to1_c_917_10_alg».proof.Proof.GcnSpec
import proofs.«118011_g48653389529423_cont_8to1_c_917_10_alg».proof.Proof.BlockValue
import Idealize.ShloMosaic.Lib.Pipeline.Value
import Idealize.ShloMosaic.Lib.ValueIdx

set_option maxRecDepth 16384

noncomputable section

namespace Cert.KernelIdeal.ArrValue

open Cert.KernelIdeal Cert.KernelIdeal.Gen Cert.KernelIdeal.Body Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ)

/-! ## The embedding's array (window 7) -/

/-- An index of the embedding's array is in point t's block iff each coordinate is in the block's range on its axis. -/
theorem mem_blk7 (t : Fin cfg0.N) (i : S10000x128.Idx) :
    i ∈ ((cfg0.win 7).blk t).view.set ↔ ∀ a : Fin 2, win0_7.index t a * S200x128.size a ≤ (i a).val ∧ (i a).val < win0_7.index t a * S200x128.size a + S200x128.size a := by
  show i ∈ ((View.whole main_v2_1).slice (win0_7.rect t)).set ↔ _
  rw [View.set_slice_whole, Rect.mem_set_unit]
  exact Iff.rfl

/-- Every index of the array lies in the block of a point of the second pass: row a is in block a / 200. -/
theorem cover7 (i : S10000x128.Idx) :
    ∃ t : Fin cfg0.N, (cfg0.win 7).flush t = true ∧ i ∈ ((cfg0.win 7).blk t).view.set := by
  have hi0 : (i 0).val < 10000 := (i 0).isLt
  have hi1 : (i 1).val < 128 := (i 1).isLt
  have hN : cfg0.N = 100 := N_0
  let t : Fin cfg0.N := ⟨50 + (i 0).val / 200, by omega⟩
  have ht : 50 ≤ t.val := Nat.le_add_right _ _
  refine ⟨t, (flush7 t).mpr ht, ?_⟩
  rw [mem_blk7]
  have hx := index7 t ht
  intro a
  match a with
  | ⟨0, _⟩ =>
    show win0_7.index t (0 : Fin 2) * 200 ≤ (i 0).val ∧ (i 0).val < win0_7.index t (0 : Fin 2) * 200 + 200
    have q0 : win0_7.index t (0 : Fin 2) = t.val - 50 := congrFun hx 0
    have : t.val = 50 + (i 0).val / 200 := rfl
    omega
  | ⟨1, _⟩ =>
    show win0_7.index t (1 : Fin 2) * 128 ≤ (i 1).val ∧ (i 1).val < win0_7.index t (1 : Fin 2) * 128 + 128
    have q1 : win0_7.index t (1 : Fin 2) = 0 := congrFun hx 1
    omega

/-- What a point of the second pass writes back to the embedding's array is its block of the specification's embedding:
    row r of the block is row 200·(t − 50) + r = 200·(t mod 50) + r of the array. -/
theorem flushed_emb (c : Dev nD) (t : Fin cfg0.N) (ht : 50 ≤ t.val) :
    (dats m 0 c).flushed 7 t = ((cfg0.win 7).blk t).view.read (Elt Ideal)
      (Cert.Gcn.embArr (m ((c : Thread nD τ).loc main_arg1)) (m ((c : Thread nD τ).loc main_arg0)) (m ((c : Thread nD τ).loc main_arg2)) (m ((c : Thread nD τ).loc main_arg3))) := by
  show (cfg0.win 7).cut (grid0.coords t) ((dats m 0 c).after 7 t) = _
  rw [after0_7]
  have hN : cfg0.N = 100 := N_0
  have hlt : t.val < 100 := hN ▸ t.isLt
  have hx := index7 t ht
  funext j
  obtain ⟨r, o, rfl⟩ : ∃ (r : Fin 200) (o : Fin 128), j = ix2 r o := ⟨j 0, j 1, eq_ix2 j⟩
  rw [View.read_apply]
  show embBlk m c t (ix2 r o) = Cert.Gcn.embArr _ _ _ _ (((cfg0.win 7).blk t).view.emb (ix2 r o))
  rw [BlockValue.embBlk_apply]
  unfold Cert.Gcn.embArr
  have e0 : ((cfg0.win 7).blk t).view.emb (ix2 r o) 0 = BlockValue.blkRow t r := Fin.ext (by
    show win0_7.index t (0 : Fin 2) * 200 + 1 * r.val = 200 * (t.val % 50) + r.val
    have q0 : win0_7.index t (0 : Fin 2) = t.val - 50 := congrFun hx 0
    omega)
  have e1 : ((cfg0.win 7).blk t).view.emb (ix2 r o) 1 = o := Fin.ext (by
    show win0_7.index t (1 : Fin 2) * 128 + 1 * o.val = o.val
    have q1 : win0_7.index t (1 : Fin 2) = 0 := congrFun hx 1
    omega)
  rw [e0, e1]

/-- The embedding's array after the run is the specification's embedding. -/
theorem final_emb (c : Dev nD) :
    (dats m 0 c).arrAt 7 cfg0.N = Cert.Gcn.embArr (m ((c : Thread nD τ).loc main_arg1)) (m ((c : Thread nD τ).loc main_arg0)) (m ((c : Thread nD τ).loc main_arg2)) (m ((c : Thread nD τ).loc main_arg3)) :=
  (dats m 0 c).arrAt_eq_of_cover 7 _ (fun t hf => flushed_emb m c t ((flush7 t).mp hf)) cover7

/-! ## The output's array (window 6) -/

/-- An index of the output's array is in point t's block iff each coordinate is in the block's range on its axis. -/
theorem mem_blk6 (t : Fin cfg0.N) (i : S10000x128.Idx) :
    i ∈ ((cfg0.win 6).blk t).view.set ↔ ∀ a : Fin 2, win0_6.index t a * S200x128.size a ≤ (i a).val ∧ (i a).val < win0_6.index t a * S200x128.size a + S200x128.size a := by
  show i ∈ ((View.whole main_v2_0).slice (win0_6.rect t)).set ↔ _
  rw [View.set_slice_whole, Rect.mem_set_unit]
  exact Iff.rfl

/-- Every index of the array lies in the block of a point of the second pass: row a is in block a / 200. -/
theorem cover6 (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 100 := N_0
  let t : Fin cfg0.N := ⟨50 + (i 0).val / 200, by omega⟩
  have ht : 50 ≤ t.val := Nat.le_add_right _ _
  refine ⟨t, (flush6 t).mpr ht, ?_⟩
  rw [mem_blk6]
  have hx := index6 t ht
  intro a
  match a with
  | ⟨0, _⟩ =>
    show win0_6.index t (0 : Fin 2) * 200 ≤ (i 0).val ∧ (i 0).val < win0_6.index t (0 : Fin 2) * 200 + 200
    have q0 : win0_6.index t (0 : Fin 2) = t.val - 50 := congrFun hx 0
    have : t.val = 50 + (i 0).val / 200 := rfl
    omega
  | ⟨1, _⟩ =>
    show win0_6.index t (1 : Fin 2) * 128 ≤ (i 1).val ∧ (i 1).val < win0_6.index t (1 : Fin 2) * 128 + 128
    have q1 : win0_6.index t (1 : Fin 2) = 0 := congrFun hx 1
    omega

/-- What a point of the second pass writes back to the output's array is its block of the specification's output:
    row r of the block is row 200·(t − 50) + r = 200·(t mod 50) + r of the array. -/
theorem flushed_out (c : Dev nD) (t : Fin cfg0.N) (ht : 50 ≤ t.val) :
    (dats m 0 c).flushed 6 t = ((cfg0.win 6).blk t).view.read (Elt Ideal)
      (Cert.Gcn.outArr (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) := by
  show (cfg0.win 6).cut (grid0.coords t) ((dats m 0 c).after 6 t) = _
  rw [after0_6]
  have hN : cfg0.N = 100 := N_0
  have hlt : t.val < 100 := hN ▸ t.isLt
  have hx := index6 t ht
  funext j
  obtain ⟨r, o, rfl⟩ : ∃ (r : Fin 200) (o : Fin 128), j = ix2 r o := ⟨j 0, j 1, eq_ix2 j⟩
  rw [View.read_apply]
  show outBlk m c t (ix2 r o) = Cert.Gcn.outArr _ _ _ _ _ _ (((cfg0.win 6).blk t).view.emb (ix2 r o))
  rw [BlockValue.outBlk_apply]
  unfold Cert.Gcn.outArr
  have e0 : ((cfg0.win 6).blk t).view.emb (ix2 r o) 0 = BlockValue.blkRow t r := Fin.ext (by
    show win0_6.index t (0 : Fin 2) * 200 + 1 * r.val = 200 * (t.val % 50) + r.val
    have q0 : win0_6.index t (0 : Fin 2) = t.val - 50 := congrFun hx 0
    omega)
  have e1 : ((cfg0.win 6).blk t).view.emb (ix2 r o) 1 = o := Fin.ext (by
    show win0_6.index t (1 : Fin 2) * 128 + 1 * o.val = o.val
    have q1 : win0_6.index t (1 : Fin 2) = 0 := congrFun hx 1
    omega)
  rw [e0, e1]

/-- The output's array after the run is the specification's output. -/
theorem final_out (c : Dev nD) :
    (dats m 0 c).arrAt 6 cfg0.N = Cert.Gcn.outArr (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t hf => flushed_out m c t ((flush6 t).mp hf)) cover6

end Cert.KernelIdeal.ArrValue

end
-- ==== Proof.RefValue.lean ====
/-
  The reference program's two results are the specification's arrays. Read index by index: its first contraction
  is P = A·X; the second runs against the transposed first weight, so at (r, o) it pairs row r of P with row o of W1,
  and with the bias read at the column and the maximum against the zero constant it is H; the third contraction is
  E = A·H; the fourth, against the transposed second weight and with the second bias read at the column, is Y.
  Every contraction is a plain finite sum over the contracted index; no finiteness of any entry is used.
-/
import proofs.«118011_g48653389529423_cont_8to1_c_917_10_alg».proof.Proof.Gen.ReferenceIdeal.Run
import proofs.«118011_g48653389529423_cont_8to1_c_917_10_alg».proof.Proof.Gen.ReferenceIdeal.Read
import proofs.«118011_g48653389529423_cont_8to1_c_917_10_alg».proof.Proof.GcnSpec
import Idealize.ShloMosaic.PureOps.Ideal
import Idealize.ShloMosaic.PureOps.Ideal.Laws
import Idealize.ShloMosaic.Lib.ValueIdx

noncomputable section

namespace Cert.RefValue

open Cert.ReferenceIdeal Cert.ReferenceIdeal.Gen Cert.ReferenceIdeal.Read Idealize.ShloMosaic Idealize.ShloMosaic.ValueIdx
  Idealize.ShloMosaic.StableHlo

/-! ## P = A·X -/

/-- The first contraction at row r, column j is P = A·X there: its left index is (r, k), its right index (k, j). -/
theorem agg_at (X : FVec Ideal S10000x128 .f32) (A : FVec Ideal S10000x10000 .f32) (r : Fin 10000) (j : Fin 128) :
    val_main_v0 (F := Ideal) X A (ix2 r j) = Cert.Gcn.agg A X r j := by
  rw [val_main_v0_apply]
  unfold Cert.Gcn.agg
  refine Finset.sum_congr rfl fun k _ => ?_
  rw [show lidx_main_v0 (ix2 r j) k = ix2 r k from
        funext fun a => Fin.ext (by match a with | ⟨0, _⟩ => rfl | ⟨1, _⟩ => rfl),
      show ridx_main_v0 (ix2 r j) k = ix2 k j from
        funext fun a => Fin.ext (by match a with | ⟨0, _⟩ => rfl | ⟨1, _⟩ => rfl)]

/-! ## H = max (P·W1ᵀ + b1) 0 -/

/-- The second contraction runs against the transposed weight: at (r, o) it pairs row r of P with row o of W1. -/
theorem lin1_at (X : FVec Ideal S10000x128 .f32) (A : FVec Ideal S10000x10000 .f32) (W1 : FVec Ideal S128x128 .f32)
    (r : Fin 10000) (o : Fin 128) :
    val_main_v2 (F := Ideal) X A W1 (ix2 r o) = ∑ j : Fin 128, Cert.Gcn.agg A X r j * W1 (ix2 o j) := by
  rw [val_main_v2_apply]
  refine Finset.sum_congr rfl fun k _ => ?_
  rw [val_main_v1_apply,
      show lidx_main_v2 (ix2 r o) k = ix2 r k from
        funext fun a => Fin.ext (by match a with | ⟨0, _⟩ => rfl | ⟨1, _⟩ => rfl),
      show idx_main_v1 (ridx_main_v2 (ix2 r o) k) = ix2 o k from
        funext fun a => Fin.ext (by match a with | ⟨0, _⟩ => rfl | ⟨1, _⟩ => rfl),
      agg_at]

/-- The two broadcasts of the first bias read it at the column. -/
theorem bias1_at (b1 : FVec Ideal S128 .f32) (r : Fin 10000) (o : Fin 128) :
    val_main_v4 (F := Ideal) b1 (ix2 r o) = b1 (ix1 o) := by
  rw [val_main_v4_apply, val_main_v3_apply,
      show idx_main_v3 (idx_main_v4 (ix2 r o)) = ix1 o from
        funext fun a => Fin.ext (by match a with | ⟨0, _⟩ => rfl)]

/-- The broadcast constant of the maximum is zero everywhere. -/
theorem zero_at (i : S10000x128.Idx) : val_main_call0_v0 (F := Ideal) i = 0 := by
  rw [val_main_call0_v0_apply, val_main_call0_cst_apply, Ideal.ofBits_def, Ideal.ofBits_zero_f32]

/-- The hidden layer at (r, o). -/
theorem hid_at (X : FVec Ideal S10000x128 .f32) (A : FVec Ideal S10000x10000 .f32) (W1 : FVec Ideal S128x128 .f32)
    (b1 : FVec Ideal S128 .f32) (r : Fin 10000) (o : Fin 128) :
    val_main_v6 (F := Ideal) X A W1 b1 (ix2 r o) = Cert.Gcn.hid A X W1 b1 r o := by
  rw [val_main_v6_apply, val_main_v5_apply, lin1_at, bias1_at, zero_at, Ideal.maximumf_def, Ideal.addf_def]
  rfl

/-! ## E = A·H -/

/-- The third contraction at (r, o) is E = A·H there. -/
theorem emb_at (X : FVec Ideal S10000x128 .f32) (A : FVec Ideal S10000x10000 .f32) (W1 : FVec Ideal S128x128 .f32)
    (b1 : FVec Ideal S128 .f32) (r : Fin 10000) (o : Fin 128) :
    val_main_v7 (F := Ideal) X A W1 b1 (ix2 r o) = Cert.Gcn.emb A X W1 b1 r o := by
  rw [val_main_v7_apply]
  unfold Cert.Gcn.emb
  refine Finset.sum_congr rfl fun k _ => ?_
  rw [show lidx_main_v7 (ix2 r o) k = ix2 r k from
        funext fun a => Fin.ext (by match a with | ⟨0, _⟩ => rfl | ⟨1, _⟩ => rfl),
      show ridx_main_v7 (ix2 r o) k = ix2 k o from
        funext fun a => Fin.ext (by match a with | ⟨0, _⟩ => rfl | ⟨1, _⟩ => rfl),
      hid_at]

/-! ## Y = E·W2ᵀ + b2 -/

/-- The fourth contraction, against the second transposed weight: row r of E with row o of W2. -/
theorem lin2_at (X : FVec Ideal S10000x128 .f32) (A : FVec Ideal S10000x10000 .f32) (W1 : FVec Ideal S128x128 .f32)
    (b1 : FVec Ideal S128 .f32) (W2 : FVec Ideal S128x128 .f32) (r : Fin 10000) (o : Fin 128) :
    val_main_v9 (F := Ideal) X A W1 b1 W2 (ix2 r o) = ∑ j : Fin 128, Cert.Gcn.emb A X W1 b1 r j * W2 (ix2 o j) := by
  rw [val_main_v9_apply]
  refine Finset.sum_congr rfl fun k _ => ?_
  rw [val_main_v8_apply,
      show lidx_main_v9 (ix2 r o) k = ix2 r k from
        funext fun a => Fin.ext (by match a with | ⟨0, _⟩ => rfl | ⟨1, _⟩ => rfl),
      show idx_main_v8 (ridx_main_v9 (ix2 r o) k) = ix2 o k from
        funext fun a => Fin.ext (by match a with | ⟨0, _⟩ => rfl | ⟨1, _⟩ => rfl),
      emb_at]

/-- The two broadcasts of the second bias read it at the column. -/
theorem bias2_at (b2 : FVec Ideal S128 .f32) (r : Fin 10000) (o : Fin 128) :
    val_main_v11 (F := Ideal) b2 (ix2 r o) = b2 (ix1 o) := by
  rw [val_main_v11_apply, val_main_v10_apply,
      show idx_main_v10 (idx_main_v11 (ix2 r o)) = ix1 o from
        funext fun a => Fin.ext (by match a with | ⟨0, _⟩ => rfl)]

/-- The output at (r, o). -/
theorem out_at (X : FVec Ideal S10000x128 .f32) (A : FVec Ideal S10000x10000 .f32) (W1 : FVec Ideal S128x128 .f32)
    (b1 : FVec Ideal S128 .f32) (W2 : FVec Ideal S128x128 .f32) (b2 : FVec Ideal S128 .f32) (r : Fin 10000) (o : Fin 128) :
    val_main_v12 (F := Ideal) X A W1 b1 W2 b2 (ix2 r o) = Cert.Gcn.out A X W1 b1 W2 b2 r o := by
  rw [val_main_v12_apply, lin2_at, bias2_at, Ideal.addf_def]
  rfl

/-! ## The two results as whole arrays -/

/-- The reference's embedding result is the specification's embedding array. -/
theorem ref_emb (X : FVec Ideal S10000x128 .f32) (A : FVec Ideal S10000x10000 .f32) (W1 : FVec Ideal S128x128 .f32)
    (b1 : FVec Ideal S128 .f32) :
    Host.dotGeneral (F := Ideal) dot_S10000x10000_S10000x128_S10000x128_1_0_0_1_n_n none (A) (maximumf (addf (Host.dotGeneral (F := Ideal) dot_S10000x128_S128x128_S10000x128_1_0_0_1_n_n none (Host.dotGeneral (F := Ideal) dot_S10000x10000_S10000x128_S10000x128_1_0_0_1_n_n none (A) (X)) (transpose S128x128 [1, 0] (W1) transposes_S128x128_S128x128_1_0)) (broadcastInDim S10000x128 ![0, 1] bcast_S1x128_S10000x128_0_1 (broadcastInDim S1x128 ![1] bcast_S128_S1x128_1 (b1)))) (broadcastInDim S10000x128 ![] bcast_S_S10000x128 (constant (F := Ideal) S_ .f32 0x00000000#32)))
      = Cert.Gcn.embArr A X W1 b1 := by
  rw [val_main_v7_eq]
  funext i
  obtain ⟨r, o, rfl⟩ : ∃ (r : Fin 10000) (o : Fin 128), i = ix2 r o := ⟨i 0, i 1, eq_ix2 i⟩
  exact emb_at X A W1 b1 r o

/-- The reference's output result is the specification's output array. -/
theorem ref_out (X : FVec Ideal S10000x128 .f32) (A : FVec Ideal S10000x10000 .f32) (W1 : FVec Ideal S128x128 .f32)
    (b1 : FVec Ideal S128 .f32) (W2 : FVec Ideal S128x128 .f32) (b2 : FVec Ideal S128 .f32) :
    addf (Host.dotGeneral (F := Ideal) dot_S10000x128_S128x128_S10000x128_1_0_0_1_n_n none (Host.dotGeneral (F := Ideal) dot_S10000x10000_S10000x128_S10000x128_1_0_0_1_n_n none (A) (maximumf (addf (Host.dotGeneral (F := Ideal) dot_S10000x128_S128x128_S10000x128_1_0_0_1_n_n none (Host.dotGeneral (F := Ideal) dot_S10000x10000_S10000x128_S10000x128_1_0_0_1_n_n none (A) (X)) (transpose S128x128 [1, 0] (W1) transposes_S128x128_S128x128_1_0)) (broadcastInDim S10000x128 ![0, 1] bcast_S1x128_S10000x128_0_1 (broadcastInDim S1x128 ![1] bcast_S128_S1x128_1 (b1)))) (broadcastInDim S10000x128 ![] bcast_S_S10000x128 (constant (F := Ideal) S_ .f32 0x00000000#32)))) (transpose S128x128 [1, 0] (W2) transposes_S128x128_S128x128_1_0)) (broadcastInDim S10000x128 ![0, 1] bcast_S1x128_S10000x128_0_1 (broadcastInDim S1x128 ![1] bcast_S128_S1x128_1 (b2)))
      = Cert.Gcn.outArr A X W1 b1 W2 b2 := by
  rw [val_main_v12_eq]
  funext i
  obtain ⟨r, o, rfl⟩ : ∃ (r : Fin 10000) (o : Fin 128), i = ix2 r o := ⟨i 0, i 1, eq_ix2 i⟩
  exact out_at X A W1 b1 W2 b2 r o

end Cert.RefValue

end
-- ==== Proof.lean ====
/-
  The certificate of a two-layer graph convolution over a dense 10000-node adjacency A:
      P = A·X,   H = max (P·W1ᵀ + b1) 0,   E = A·H,   Y = E·W2ᵀ + b2,   results (Y, E).
  The kernel makes two passes over the 50 row blocks of A on a 2 × 50 grid. The first pass computes the hidden layer H,
  200 rows a point, into a buffer it keeps between points; the second pass, from the whole of H, computes each row
  block of E and Y. The reference is four matrix products on the host. At the exact instance every product is a plain
  finite sum over the contracted axis, casts between float formats are the identity, and both programs read the same
  zero; so the two sides are the same function of the arguments, row by row, and no law that could fail at an infinity
  is used.

  The frames of the two kernel programs are one argument at two float instances: the body is run once per control case
  (Run*), an invariant over the three carried buffers is moved from point to point (Inv*), and the library's launch
  theorem with a tracked invariant concludes (Oblig*). The reference's frame is its run with the results dropped. The
  idealization rewrote nothing, so nothing is to be preserved. For the value claim the kernel's two result arrays are
  read off the same run block by block (BlockValue, ArrValue) and the reference's results off its run (RefValue), both
  as the arrays of GcnSpec.
-/
import proofs.«118011_g48653389529423_cont_8to1_c_917_10_alg».proof.Defs
import proofs.«118011_g48653389529423_cont_8to1_c_917_10_alg».proof.Proof.Gen.Kernel
import proofs.«118011_g48653389529423_cont_8to1_c_917_10_alg».proof.Proof.Gen.KernelIdeal
import proofs.«118011_g48653389529423_cont_8to1_c_917_10_alg».proof.Proof.Gen.ReferenceIdeal
import proofs.«118011_g48653389529423_cont_8to1_c_917_10_alg».proof.Proof.Gen.Pre_finite_inputs
import proofs.«118011_g48653389529423_cont_8to1_c_917_10_alg».proof.Proof.Gen.ReferenceIdeal.Run
import proofs.«118011_g48653389529423_cont_8to1_c_917_10_alg».proof.Proof.ObligBits
import proofs.«118011_g48653389529423_cont_8to1_c_917_10_alg».proof.Proof.ObligIdeal
import proofs.«118011_g48653389529423_cont_8to1_c_917_10_alg».proof.Proof.ArrValue
import proofs.«118011_g48653389529423_cont_8to1_c_917_10_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere and keeps its arguments. -/
theorem frame_kernel : Cert.frame_Kernel (hKernel := Cert.Kernel.Gen.facts) (hPre_finite_inputs := Cert.Pre_finite_inputs.Gen.facts) :=
  fun m ρ _ => Cert.Kernel.Body.frame (F := Bits) m ρ

/-- So does the kernel read at the exact instance. -/
theorem frame_kernelIdeal : Cert.frame_KernelIdeal (hKernelIdeal := Cert.KernelIdeal.Gen.facts) (hPre_finite_inputs := Cert.Pre_finite_inputs.Gen.facts) :=
  fun m ρ _ => Cert.KernelIdeal.Body.frame (F := Ideal) m ρ

/-- The reference's frame is its run with the two results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both programs end with the output array Y and the embedding array E of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (Cert.KernelIdeal.Body.dats m 0 c).arrAt 6 Cert.KernelIdeal.cfg0.N,
    fun c => (Cert.KernelIdeal.Body.dats m 0 c).arrAt 7 Cert.KernelIdeal.cfg0.N,
    Cert.KernelIdeal.Body.run_results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · beta_reduce
    rw [Cert.KernelIdeal.ArrValue.final_out m c, (hagree c).1, (hagree c).2.1, (hagree c).2.2.1, (hagree c).2.2.2.1,
      (hagree c).2.2.2.2.1, (hagree c).2.2.2.2.2]
    exact Cert.RefValue.ref_out _ _ _ _ _ _
  · beta_reduce
    rw [Cert.KernelIdeal.ArrValue.final_emb m c, (hagree c).1, (hagree c).2.1, (hagree c).2.2.1, (hagree c).2.2.2.1]
    exact Cert.RefValue.ref_emb _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
